-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S50000x2 : Shape := ⟨2, ![50000, 2]⟩
abbrev S2x1600000 : Shape := ⟨2, ![2, 1600000]⟩
abbrev S256x256 : Shape := ⟨2, ![256, 256]⟩
abbrev S256 : Shape := ⟨1, ![256]⟩
abbrev S256x1 : Shape := ⟨2, ![256, 1]⟩
abbrev S1 : Shape := ⟨1, ![1]⟩
abbrev S256x64 : Shape := ⟨2, ![256, 64]⟩
abbrev S64 : Shape := ⟨1, ![64]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S50000x2 : S_.BroadcastsInDim S50000x2 (![] : Fin 0 → Fin S50000x2.rank)
  reducesTo_S50000x2_S_d0_1 : S50000x2.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S2x1600000 : S_.BroadcastsInDim S2x1600000 (![] : Fin 0 → Fin S2x1600000.rank)
  reducesTo_S2x1600000_S_d0_1 : S2x1600000.ReducesTo [0, 1] S_

variable [Facts]

def fn_part3 {F : FTy → Type} [FloatOps F] (main_arg2 : IVec S2x1600000 32) (main_v48 : IVec S_ 1) (main_v50 : IVec S2x1600000 1) : IVec S_ 1 :=
  let main_c_19 : IVec S_ 1 := constantI S_ 1 1#1
  let main_v51 : IVec S_ 1 := (fun x v => Host.reduce IntOp.andi x v reducesTo_S2x1600000_S_d0_1 h_S_) main_v50 main_c_19
  let main_v52 : IVec S_ 1 := andi main_v48 main_v51
  let main_c_20 : IVec S_ 32 := constantI S_ 32 50000#32
  let main_v53 : IVec S2x1600000 32 := broadcastInDim S2x1600000 ![] bcast_S_S2x1600000 main_c_20
  let main_v54 : IVec S2x1600000 1 := cmpi .slt main_arg2 main_v53
  let main_c_21 : IVec S_ 1 := constantI S_ 1 1#1
  let main_v55 : IVec S_ 1 := (fun x v => Host.reduce IntOp.andi x v reducesTo_S2x1600000_S_d0_1 h_S_) main_v54 main_c_21
  let main_v56 : IVec S_ 1 := andi main_v52 main_v55
  main_v56

def fn_part2 {F : FTy → Type} [FloatOps F] (main_arg2 : IVec S2x1600000 32) (main_arg8 : FVec F S256 .f32) (main_arg9 : FVec F S256x64 .f32) (main_arg10 : FVec F S64 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x64 .f32 := Host.absf main_arg9
  let main_cst_14 : FVec F S_ .f32 := constant S_ .f32 0x7F800000#32
  let main_v40 : FVec F S256x64 .f32 := broadcastInDim S256x64 ![] bcast_S_S256x64 main_cst_14
  let main_v41 : IVec S256x64 1 := cmpf .olt main_v39 main_v40
  let main_c_15 : IVec S_ 1 := constantI S_ 1 1#1
  let main_v42 : IVec S_ 1 := (fun x v => Host.reduce IntOp.andi x v reducesTo_S256x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_c_18 : IVec S_ 32 := constantI S_ 32 4294917296#32
  let main_v49 : IVec S2x1600000 32 := broadcastInDim S2x1600000 ![] bcast_S_S2x1600000 main_c_18
  let main_v50 : IVec S2x1600000 1 := cmpi .sge main_arg2 main_v49
  fn_part3 (F := F) main_arg2 main_v48 main_v50

def fn_part1 {F : FTy → Type} [FloatOps F] (main_arg2 : IVec S2x1600000 32) (main_arg5 : FVec F S256x1 .f32) (main_arg6 : FVec F S1 .f32) (main_arg7 : FVec F S256x256 .f32) (main_arg8 : FVec F S256 .f32) (main_arg9 : FVec F S256x64 .f32) (main_arg10 : FVec F S64 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x1 .f32 := Host.absf main_arg5
  let main_cst_6 : FVec F S_ .f32 := constant S_ .f32 0x7F800000#32
  let main_v20 : FVec F S256x1 .f32 := broadcastInDim S256x1 ![] bcast_S_S256x1 main_cst_6
  let main_v21 : IVec S256x1 1 := cmpf .olt main_v19 main_v20
  let main_c_7 : IVec S_ 1 := constantI S_ 1 1#1
  let main_v22 : IVec S_ 1 := (fun x v => Host.reduce IntOp.andi x v reducesTo_S256x1_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg2 main_arg8 main_arg9 main_arg10 main_v33

def fn {F : FTy → Type} [FloatOps F] (main_arg0 : FVec F S50000x256 .f32) (main_arg1 : FVec F S50000x2 .f32) (main_arg2 : IVec S2x1600000 32) (main_arg3 : FVec F S256x256 .f32) (main_arg4 : FVec F S256 .f32) (main_arg5 : FVec F S256x1 .f32) (main_arg6 : FVec F S1 .f32) (main_arg7 : FVec F S256x256 .f32) (main_arg8 : FVec F S256 .f32) (main_arg9 : FVec F S256x64 .f32) (main_arg10 : FVec F S64 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S50000x2 .f32 := Host.absf main_arg1
  let main_cst_0 : FVec F S_ .f32 := constant S_ .f32 0x7F800000#32
  let main_v5 : FVec F S50000x2 .f32 := broadcastInDim S50000x2 ![] bcast_S_S50000x2 main_cst_0
  let main_v6 : IVec S50000x2 1 := cmpf .olt main_v4 main_v5
  let main_c_1 : IVec S_ 1 := constantI S_ 1 1#1
  let main_v7 : IVec S_ 1 := (fun x v => Host.reduce IntOp.andi x v reducesTo_S50000x2_S_d0_1 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg2 main_arg5 main_arg6 main_arg7 main_arg8 main_arg9 main_arg10 main_v13 main_v16
-- ==== Kernel.lean ====
abbrev S50000x256 : Shape := ⟨2, ![50000, 256]⟩
abbrev S50000x2 : Shape := ⟨2, ![50000, 2]⟩
abbrev S2x1600000 : Shape := ⟨2, ![2, 1600000]⟩
abbrev S256x256 : Shape := ⟨2, ![256, 256]⟩
abbrev S256 : Shape := ⟨1, ![256]⟩
abbrev S256x1 : Shape := ⟨2, ![256, 1]⟩
abbrev S1 : Shape := ⟨1, ![1]⟩
abbrev S256x64 : Shape := ⟨2, ![256, 64]⟩
abbrev S64 : Shape := ⟨1, ![64]⟩
abbrev S50000x1 : Shape := ⟨2, ![50000, 1]⟩
abbrev S50000x64 : Shape := ⟨2, ![50000, 64]⟩
abbrev S5000x256 : Shape := ⟨2, ![5000, 256]⟩
abbrev S5000x1 : Shape := ⟨2, ![5000, 1]⟩
abbrev S5000x64 : Shape := ⟨2, ![5000, 64]⟩
abbrev S1x256 : Shape := ⟨2, ![1, 256]⟩
abbrev S1x1 : Shape := ⟨2, ![1, 1]⟩
abbrev S1x64 : Shape := ⟨2, ![1, 64]⟩
abbrev S50000 : Shape := ⟨1, ![50000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1605632x64 : Shape := ⟨2, ![1605632, 64]⟩
abbrev S1605632 : Shape := ⟨1, ![1605632]⟩
abbrev S16384x64 : Shape := ⟨2, ![16384, 64]⟩
abbrev S16384 : Shape := ⟨1, ![16384]⟩

abbrev nBuf : Space → Nat
  | .hbm => 72
  | .vmem => 20
  | .smem => 0
  | _ => 0

abbrev bufTy : (tb : Table) → Fin (tcTables nBuf tb) → BufTy
  | .hbm, ⟨0, _⟩ => ⟨S50000x256, .f32⟩
  | .hbm, ⟨1, _⟩ => ⟨S50000x2, .f32⟩
  | .hbm, ⟨2, _⟩ => ⟨S2x1600000, .i32⟩
  | .hbm, ⟨3, _⟩ => ⟨S256x256, .f32⟩
  | .hbm, ⟨4, _⟩ => ⟨S256, .f32⟩
  | .hbm, ⟨5, _⟩ => ⟨S256x1, .f32⟩
  | .hbm, ⟨6, _⟩ => ⟨S1, .f32⟩
  | .hbm, ⟨7, _⟩ => ⟨S256x256, .f32⟩
  | .hbm, ⟨8, _⟩ => ⟨S256, .f32⟩
  | .hbm, ⟨9, _⟩ => ⟨S256x64, .f32⟩
  | .hbm, ⟨10, _⟩ => ⟨S64, .f32⟩
  | .hbm, ⟨11, _⟩ => ⟨S50000x1, .f32⟩
  | .hbm, ⟨12, _⟩ => ⟨S50000x64, .f32⟩
  | .hbm, ⟨13, _⟩ => ⟨S50000, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1, .i32⟩
  | .hbm, ⟨27, _⟩ => ⟨S_, .i32⟩
  | .hbm, ⟨28, _⟩ => ⟨S1600000x1, .i32⟩
  | .hbm, ⟨29, _⟩ => ⟨S1600000x1, .i1⟩
  | .hbm, ⟨30, _⟩ => ⟨S1x1, .i32⟩
  | .hbm, ⟨31, _⟩ => ⟨S1600000x1, .i32⟩
  | .hbm, ⟨32, _⟩ => ⟨S1600000x1, .i1⟩
  | .hbm, ⟨33, _⟩ => ⟨S1600000x1, .i1⟩
  | .hbm, ⟨34, _⟩ => ⟨S_, .i1⟩
  | .hbm, ⟨35, _⟩ => ⟨S1600000, .i1⟩
  | .hbm, ⟨36, _⟩ => ⟨S1600000x64, .f32⟩
  | .hbm, ⟨37, _⟩ => ⟨S1600000x64, .i1⟩
  | .hbm, ⟨38, _⟩ => ⟨S_, .f32⟩
  | .hbm, ⟨39, _⟩ => ⟨S1600000x64, .f32⟩
  | .hbm, ⟨40, _⟩ => ⟨S1600000x64, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1, .i32⟩
  | .hbm, ⟨50, _⟩ => ⟨S_, .i32⟩
  | .hbm, ⟨51, _⟩ => ⟨S1600000x1, .i32⟩
  | .hbm, ⟨52, _⟩ => ⟨S1600000x1, .i1⟩
  | .hbm, ⟨53, _⟩ => ⟨S1x1, .i32⟩
  | .hbm, ⟨54, _⟩ => ⟨S1600000x1, .i32⟩
  | .hbm, ⟨55, _⟩ => ⟨S1600000x1, .i1⟩
  | .hbm, ⟨56, _⟩ => ⟨S1600000x1, .i1⟩
  | .hbm, ⟨57, _⟩ => ⟨S_, .i1⟩
  | .hbm, ⟨58, _⟩ => ⟨S1600000, .i1⟩
  | .hbm, ⟨59, _⟩ => ⟨S1600000x64, .f32⟩
  | .hbm, ⟨60, _⟩ => ⟨S1600000x64, .i1⟩
  | .hbm, ⟨61, _⟩ => ⟨S_, .f32⟩
  | .hbm, ⟨62, _⟩ => ⟨S1600000x64, .f32⟩
  | .hbm, ⟨63, _⟩ => ⟨S1600000x64, .f32⟩
  | .hbm, ⟨64, _⟩ => ⟨S_, .i32⟩
  | .hbm, ⟨65, _⟩ => ⟨S_, .f32⟩
  | .hbm, ⟨66, _⟩ => ⟨S1605632x64, .f32⟩
  | .hbm, ⟨67, _⟩ => ⟨S_, .i32⟩
  | .hbm, ⟨68, _⟩ => ⟨S_, .f32⟩
  | .hbm, ⟨69, _⟩ => ⟨S1605632x64, .f32⟩
  | .hbm, ⟨70, _⟩ => ⟨S1605632, .f32⟩
  | .hbm, ⟨71, _⟩ => ⟨S1600000, .f32⟩
  | .local _ .vmem, ⟨0, _⟩ => ⟨S5000x256, .f32⟩
  | .local _ .vmem, ⟨1, _⟩ => ⟨S5000x256, .f32⟩
  | .local _ .vmem, ⟨2, _⟩ => ⟨S256x256, .f32⟩
  | .local _ .vmem, ⟨3, _⟩ => ⟨S256, .f32⟩
  | .local _ .vmem, ⟨4, _⟩ => ⟨S256x1, .f32⟩
  | .local _ .vmem, ⟨5, _⟩ => ⟨S1, .f32⟩
  | .local _ .vmem, ⟨6, _⟩ => ⟨S256x256, .f32⟩
  | .local _ .vmem, ⟨7, _⟩ => ⟨S256, .f32⟩
  | .local _ .vmem, ⟨8, _⟩ => ⟨S256x64, .f32⟩
  | .local _ .vmem, ⟨9, _⟩ => ⟨S64, .f32⟩
  | .local _ .vmem, ⟨10, _⟩ => ⟨S5000x1, .f32⟩
  | .local _ .vmem, ⟨11, _⟩ => ⟨S5000x1, .f32⟩
  | .local _ .vmem, ⟨12, _⟩ => ⟨S5000x64, .f32⟩
  | .local _ .vmem, ⟨13, _⟩ => ⟨S5000x64, .f32⟩
  | .local _ .vmem, ⟨14, _⟩ => ⟨S16384x64, .f32⟩
  | .local _ .vmem, ⟨15, _⟩ => ⟨S16384x64, .f32⟩
  | .local _ .vmem, ⟨16, _⟩ => ⟨S16384x64, .f32⟩
  | .local _ .vmem, ⟨17, _⟩ => ⟨S16384x64, .f32⟩
  | .local _ .vmem, ⟨18, _⟩ => ⟨S16384, .f32⟩
  | .local _ .vmem, ⟨19, _⟩ => ⟨S16384, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v6 : Ref sig .tc := ⟨.hbm, 40, rfl⟩
abbrev main_call1_c : Ref sig .tc := ⟨.hbm, 41, rfl⟩
abbrev main_call1_v0 : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_c_1 : Ref sig .tc := ⟨.hbm, 49, rfl⟩
abbrev main_call1_c_2 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_3 : Ref sig .tc := ⟨.hbm, 57, rfl⟩
abbrev main_call1_v12 : Ref sig .tc := ⟨.hbm, 58, rfl⟩
abbrev main_call1_v13 : Ref sig .tc := ⟨.hbm, 59, rfl⟩
abbrev main_call1_v14 : Ref sig .tc := ⟨.hbm, 60, rfl⟩
abbrev main_call1_cst : Ref sig .tc := ⟨.hbm, 61, rfl⟩
abbrev main_call1_v15 : Ref sig .tc := ⟨.hbm, 62, rfl⟩
abbrev main_v7 : Ref sig .tc := ⟨.hbm, 63, rfl⟩
abbrev main_c : Ref sig .tc := ⟨.hbm, 64, rfl⟩
abbrev main_call2_v0 : Ref sig .tc := ⟨.hbm, 65, rfl⟩
abbrev main_v8 : Ref sig .tc := ⟨.hbm, 66, rfl⟩
abbrev main_c_0 : Ref sig .tc := ⟨.hbm, 67, rfl⟩
abbrev main_call3_v0 : Ref sig .tc := ⟨.hbm, 68, rfl⟩
abbrev main_v9 : Ref sig .tc := ⟨.hbm, 69, rfl⟩
abbrev main_v10 : Ref sig .tc := ⟨.hbm, 70, rfl⟩
abbrev main_v11 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S5000x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![98], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  ![arg0.toNat]

abbrev stage1_0 : Fin 2 → Memref sig .tc .vmem S16384x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16384x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S16384 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  shapeCasts_S256_S1x256 : S256.ShapeCasts S1x256
  broadcasts_S1x256_S5000x256 : S1x256.Broadcasts S5000x256
  inb_S256x1_S256x1_0_0 : ∀ a, (![0, 0] : Fin 2 → Nat) a + S256x1.size a ≤ S256x1.size a
  h_S256x1 : 0 < S256x1.numel
  inb_S1_S1_0 : ∀ a, (![0] : Fin 1 → Nat) a + S1.size a ≤ S1.size a
  h_S1 : 0 < S1.numel
  shapeCasts_S1_S1x1 : S1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  inb_S256x64_S256x64_0_0 : ∀ a, (![0, 0] : Fin 2 → Nat) a + S256x64.size a ≤ S256x64.size a
  h_S256x64 : 0 < S256x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  shapeCasts_S50000x1_S50000 : S50000x1.ShapeCasts S50000
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  pads_S1600000x64_S1605632x64_056320_000 : S1600000x64.Pads (![0, 0] : Fin 2 → Nat) ![5632, 0] ![0, 0] S1605632x64
  inb_S16384x64_S16384x64_0_0 : ∀ a, (![0, 0] : Fin 2 → Nat) a + S16384x64.size a ≤ S16384x64.size a
  h_S16384x64 : 0 < S16384x64.numel
  shapeCasts_S16384x64_S16384x64 : S16384x64.ShapeCasts S16384x64
  reduces_S16384x64_S16384 : S16384x64.Reduces [1] S16384
  inb_S16384_S16384_0 : ∀ a, (![0] : Fin 1 → Nat) a + S16384.size a ≤ S16384.size a
  h_S16384 : 0 < S16384.numel
  slices_S1605632_S1600000_0 : S1605632.Slices ![0] S1600000
  dot_S5000x256_S256x256_S5000x256_1_0_0_1_n_n_wf : DotDims.WF S5000x256 S256x256 S5000x256 [1] [0] [0] [1] [] []
  dot_S5000x256_S256x1_S5000x1_1_0_0_1_n_n_wf : DotDims.WF S5000x256 S256x1 S5000x1 [1] [0] [0] [1] [] []
  dot_S5000x256_S256x64_S5000x64_1_0_0_1_n_n_wf : DotDims.WF S5000x256 S256x64 S5000x64 [1] [0] [0] [1] [] []
  gather_S50000x64_S1600000x1_S1600000x64_1_0_n_n_0_1_164_wf : GatherDims.WF S50000x64 S1600000x1 S1600000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S256x1.size a
  hwx0_3 : ∀ i : grid0.Coords, EltTy.bits .f32 = 32 ∨ (Rect.block (s := S256x1) S256x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1.size a ≤ S1.size a
  hwx0_4 : ∀ i : grid0.Coords, EltTy.bits .f32 = 32 ∨ (Rect.block (s := S1) S1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x64.size a ≤ S256x64.size a
  hwx0_7 : ∀ i : grid0.Coords, EltTy.bits .f32 = 32 ∨ (Rect.block (s := S256x64) S256x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x1.size a ≤ S50000x1.size a
  hwx0_9 : ∀ i : grid0.Coords, EltTy.bits .f32 = 32 ∨ (Rect.block (s := S50000x1) S5000x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S5000x64.size a ≤ S50000x64.size a
  hwx0_10 : ∀ i : grid0.Coords, EltTy.bits .f32 = 32 ∨ (Rect.block (s := S50000x64) S5000x64.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16384x64.size a ≤ S1605632x64.size a
  hwx1_0 : ∀ i : grid1.Coords, EltTy.bits .f32 = 32 ∨ (Rect.block (s := S1605632x64) S16384x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16384x64.size a ≤ S1605632x64.size a
  hwx1_1 : ∀ i : grid1.Coords, EltTy.bits .f32 = 32 ∨ (Rect.block (s := S1605632x64) S16384x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16384.size a ≤ S1605632.size a
  hwx1_2 : ∀ i : grid1.Coords, EltTy.bits .f32 = 32 ∨ (Rect.block (s := S1605632) S16384.size (cc1_transform_2 i) (hinb1_2 i)).WholeWords (EltTy.packing .f32)

variable [Facts₀]

def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def dot_S5000x256_S256x1_S5000x1_1_0_0_1_n_n : DotDims S5000x256 S256x1 S5000x1 where
  lhsContracting := [1]
  rhsContracting := [0]
  lhsNonContracting := [0]
  rhsNonContracting := [1]
  lhsBatch := []
  rhsBatch := []
  wf := dot_S5000x256_S256x1_S5000x1_1_0_0_1_n_n_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S256x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0_0) S5000x1.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v0_1) S5000x64.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v8) S16384x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S16384x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S16384.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x256 : Shape := ⟨2, ![50000, 256]⟩
abbrev S50000x2 : Shape := ⟨2, ![50000, 2]⟩
abbrev S2x1600000 : Shape := ⟨2, ![2, 1600000]⟩
abbrev S256x256 : Shape := ⟨2, ![256, 256]⟩
abbrev S256 : Shape := ⟨1, ![256]⟩
abbrev S256x1 : Shape := ⟨2, ![256, 1]⟩
abbrev S1 : Shape := ⟨1, ![1]⟩
abbrev S256x64 : Shape := ⟨2, ![256, 64]⟩
abbrev S64 : Shape := ⟨1, ![64]⟩
abbrev S1x256 : Shape := ⟨2, ![1, 256]⟩
abbrev S_ : Shape := ⟨0, ![]⟩
abbrev S50000x1 : Shape := ⟨2, ![50000, 1]⟩
abbrev S1x1 : Shape := ⟨2, ![1, 1]⟩
abbrev S50000 : Shape := ⟨1, ![50000]⟩
abbrev S50000x64 : Shape := ⟨2, ![50000, 64]⟩
abbrev S1x64 : Shape := ⟨2, ![1, 64]⟩
abbrev S1x1600000 : Shape := ⟨2, ![1, 1600000]⟩
abbrev S1600000 : Shape := ⟨1, ![1600000]⟩
abbrev S1600000x1 : Shape := ⟨2, ![1600000, 1]⟩
abbrev S1600000x64 : Shape := ⟨2, ![1600000, 64]⟩

abbrev nBuf : Space → Nat
  | .hbm => 75
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S50000x2, .f32⟩
  | .hbm, ⟨2, _⟩ => ⟨S2x1600000, .i32⟩
  | .hbm, ⟨3, _⟩ => ⟨S256x256, .f32⟩
  | .hbm, ⟨4, _⟩ => ⟨S256, .f32⟩
  | .hbm, ⟨5, _⟩ => ⟨S256x1, .f32⟩
  | .hbm, ⟨6, _⟩ => ⟨S1, .f32⟩
  | .hbm, ⟨7, _⟩ => ⟨S256x256, .f32⟩
  | .hbm, ⟨8, _⟩ => ⟨S256, .f32⟩
  | .hbm, ⟨9, _⟩ => ⟨S256x64, .f32⟩
  | .hbm, ⟨10, _⟩ => ⟨S64, .f32⟩
  | .hbm, ⟨11, _⟩ => ⟨S50000x256, .f32⟩
  | .hbm, ⟨12, _⟩ => ⟨S1x256, .f32⟩
  | .hbm, ⟨13, _⟩ => ⟨S50000x256, .f32⟩
  | .hbm, ⟨14, _⟩ => ⟨S50000x256, .f32⟩
  | .hbm, ⟨15, _⟩ => ⟨S_, .f32⟩
  | .hbm, ⟨16, _⟩ => ⟨S50000x256, .f32⟩
  | .hbm, ⟨17, _⟩ => ⟨S50000x256, .f32⟩
  | .hbm, ⟨18, _⟩ => ⟨S50000x1, .f32⟩
  | .hbm, ⟨19, _⟩ => ⟨S1x1, .f32⟩
  | .hbm, ⟨20, _⟩ => ⟨S50000x1, .f32⟩
  | .hbm, ⟨21, _⟩ => ⟨S50000x1, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x256, .f32⟩
  | .hbm, ⟨32, _⟩ => ⟨S1x256, .f32⟩
  | .hbm, ⟨33, _⟩ => ⟨S50000x256, .f32⟩
  | .hbm, ⟨34, _⟩ => ⟨S50000x256, .f32⟩
  | .hbm, ⟨35, _⟩ => ⟨S_, .f32⟩
  | .hbm, ⟨36, _⟩ => ⟨S50000x256, .f32⟩
  | .hbm, ⟨37, _⟩ => ⟨S50000x256, .f32⟩
  | .hbm, ⟨38, _⟩ => ⟨S50000x64, .f32⟩
  | .hbm, ⟨39, _⟩ => ⟨S1x64, .f32⟩
  | .hbm, ⟨40, _⟩ => ⟨S50000x64, .f32⟩
  | .hbm, ⟨41, _⟩ => ⟨S50000x64, .f32⟩
  | .hbm, ⟨42, _⟩ => ⟨S1x1600000, .i32⟩
  | .hbm, ⟨43, _⟩ => ⟨S1600000, .i32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x64, .f32⟩
  | .hbm, ⟨53, _⟩ => ⟨S1x1600000, .i32⟩
  | .hbm, ⟨54, _⟩ => ⟨S1600000, .i32⟩
  | .hbm, ⟨55, _⟩ => ⟨S_, .i32⟩
  | .hbm, ⟨56, _⟩ => ⟨S1600000, .i32⟩
  | .hbm, ⟨57, _⟩ => ⟨S1600000, .i1⟩
  | .hbm, ⟨58, _⟩ => ⟨S_, .i32⟩
  | .hbm, ⟨59, _⟩ => ⟨S1600000, .i32⟩
  | .hbm, ⟨60, _⟩ => ⟨S1600000, .i32⟩
  | .hbm, ⟨61, _⟩ => ⟨S1600000, .i32⟩
  | .hbm, ⟨62, _⟩ => ⟨S1600000x1, .i32⟩
  | .hbm, ⟨63, _⟩ => ⟨S1600000x64, .f32⟩
  | .hbm, ⟨64, _⟩ => ⟨S1600000x64, .f32⟩
  | .hbm, ⟨65, _⟩ => ⟨S_, .f32⟩
  | .hbm, ⟨66, _⟩ => ⟨S1600000, .f32⟩
  | .hbm, ⟨67, _⟩ => ⟨S1600000, .f32⟩
  | .hbm, ⟨68, _⟩ => ⟨S1600000, .f32⟩
  | .hbm, ⟨69, _⟩ => ⟨S_, .f32⟩
  | .hbm, ⟨70, _⟩ => ⟨S1600000, .f32⟩
  | .hbm, ⟨71, _⟩ => ⟨S1600000, .f32⟩
  | .hbm, ⟨72, _⟩ => ⟨S_, .f32⟩
  | .hbm, ⟨73, _⟩ => ⟨S1600000, .f32⟩
  | .hbm, ⟨74, _⟩ => ⟨S1600000, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_cst : Ref sig .tc := ⟨.hbm, 15, rfl⟩
abbrev main_call0_v0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_v13 : Ref sig .tc := ⟨.hbm, 27, rfl⟩
abbrev main_cst_0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_call1_cst : Ref sig .tc := ⟨.hbm, 35, rfl⟩
abbrev main_call1_v0 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c : Ref sig .tc := ⟨.hbm, 44, rfl⟩
abbrev main_v27 : Ref sig .tc := ⟨.hbm, 45, rfl⟩
abbrev main_v28 : Ref sig .tc := ⟨.hbm, 46, rfl⟩
abbrev main_c_1 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_2 : Ref sig .tc := ⟨.hbm, 55, rfl⟩
abbrev main_v36 : Ref sig .tc := ⟨.hbm, 56, rfl⟩
abbrev main_v37 : Ref sig .tc := ⟨.hbm, 57, rfl⟩
abbrev main_c_3 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_4 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_5 : Ref sig .tc := ⟨.hbm, 69, rfl⟩
abbrev main_v47 : Ref sig .tc := ⟨.hbm, 70, rfl⟩
abbrev main_v48 : Ref sig .tc := ⟨.hbm, 71, rfl⟩
abbrev main_cst_6 : Ref sig .tc := ⟨.hbm, 72, rfl⟩
abbrev main_v49 : Ref sig .tc := ⟨.hbm, 73, rfl⟩
abbrev main_v50 : Ref sig .tc := ⟨.hbm, 74, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  bcast_S_S50000 : S_.BroadcastsInDim S50000 (![] : Fin 0 → Fin S50000.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S2x1600000_S1x1600000_1_0 : S2x1600000.Slices ![1, 0] S1x1600000
  reducesTo_S1600000x64_S1600000_d1 : S1600000x64.ReducesTo [1] S1600000
  h_S_ : 0 < S_.numel
  dot_S50000x256_S256x256_S50000x256_1_0_0_1_n_n_wf : DotDims.WF S50000x256 S256x256 S50000x256 [1] [0] [0] [1] [] []
  dot_S50000x256_S256x1_S50000x1_1_0_0_1_n_n_wf : DotDims.WF S50000x256 S256x1 S50000x1 [1] [0] [0] [1] [] []
  dot_S50000x256_S256x64_S50000x64_1_0_0_1_n_n_wf : DotDims.WF S50000x256 S256x64 S50000x64 [1] [0] [0] [1] [] []
  gather_S50000x64_S1600000x1_S1600000x64_1_0_n_n_0_1_164_wf : GatherDims.WF S50000x64 S1600000x1 S1600000x64 [1] [0] [] [0] [] 1 ![1, 64]

variable [Facts₀]

def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x1_S50000x1_1_0_0_1_n_n : DotDims S50000x256 S256x1 S50000x1 where
  lhsContracting := [1]
  rhsContracting := [0]
  lhsNonContracting := [0]
  rhsNonContracting := [1]
  lhsBatch := []
  rhsBatch := []
  wf := dot_S50000x256_S256x1_S50000x1_1_0_0_1_n_n_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf

class Facts : Prop extends Facts₀ where

variable [Facts]
-- ==== Proof.LibGatherScatter.lean ====
/-
  The host's gather and accumulating scatter in the shapes array indexing `x[idx]` and the segment sum
  `x.at[idx].add(u)` lower to, READ AT AN INDEX at the ideal instance, for any sizes: one axis of the operand is
  indexed by a column of 32-bit words, the other axis (if any) is carried whole. The gather reads the operand at
  the word's signed value clamped into the axis; the scatter adds to an element every update whose word's signed
  value is exactly that element's coordinate (an update landing outside is dropped). Also the negative-index
  wrap (a negative word counts from the end) and the column broadcast that feed them, read at an index.
  Each lemma is stated for ANY dimension-number record of the given type whose fields are the listed ones.
-/
import Idealize.ShloMosaic.PureOps.Ideal
import Idealize.ShloMosaic.Lib.ValueIdx
import Idealize.ShloMosaic.Lib.StableHlo.Predicate
import Mathlib.Algebra.BigOperators.Group.Finset.Basic

set_option maxRecDepth 16384

noncomputable section

namespace Cert.LibGatherScatter

open Idealize.ShloMosaic Idealize.ShloMosaic.ValueIdx
open scoped BigOperators

/-! ## The clamp of a start index -/

/-- The signed value of a 32-bit word clamped into `[0, N - 1]`: a negative word gives `0`, one at or past `N`
    gives `N - 1`. -/
def clampIdx (N : Nat) (hN : 0 < N) (v : BitVec 32) : Fin N := ⟨min v.toInt.toNat (N - 1), by omega⟩

/-- A word whose signed value is already in `[0, N)` is clamped to that value. -/
theorem clampIdx_of_inRange {N : Nat} (hN : 0 < N) {v : BitVec 32} (h0 : 0 ≤ v.toInt) (h1 : v.toInt < N) :
    (clampIdx N hN v).val = v.toInt.toNat := by
  show min v.toInt.toNat (N - 1) = v.toInt.toNat
  omega

/-! ## The gather along the first axis, read at an index -/

/-- The gather of a rank-1 operand `[N]` at a column `[E, 1]` of start indices (the operand's one axis collapsed
    and start-indexed, no offset or batching axes, the index vector on axis 1): result element `e` is the operand
    at start index `e`'s signed value clamped into `[0, N - 1]`. -/
theorem gather1_apply {α : Type} {N E : Nat} (hN : 0 < N) (d : GatherDims ⟨1, ![N]⟩ ⟨2, ![E, 1]⟩ ⟨1, ![E]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![E, 1]⟩ 32) (e : Fin E) :
    Host.gather d x idx (ix1 e) = x (ix1 (clampIdx N hN (idx (ix2 e 0)))) := by
  have h := StableHlo.Predicate.gather_take d hcoll hob hsim hivd x idx e hN
  have e1 : ∀ {n : Nat} (k : Fin n), (Shape.Idx.ofFin k : (⟨1, ![n]⟩ : Shape).Idx) = ix1 k := fun k => by
    funext a
    obtain rfl : a = 0 := Subsingleton.elim _ _
    exact Fin.ext rfl
  have e2 : StableHlo.Predicate.ixP e = ix2 e 0 := by
    funext a
    match a with
    | ⟨0, _⟩ => rfl
    | ⟨1, _⟩ => rfl
  rw [e1, e1] at h
  simp only [e2] at h
  exact h

/-- The gather of whole rows of a rank-2 operand `[N, C]` at a column `[E, 1]` of start indices (axis 0 collapsed
    and start-indexed, axis 1 the one offset axis, the index vector on axis 1): result element `(e, f)` is the
    operand at row "start index `e`'s signed value clamped into `[0, N - 1]`", column `f`. -/
theorem gather2_apply {α : Type} {N E C : Nat} (hN : 0 < N) (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![E, 1]⟩ 32) (e : Fin E) (f : Fin C) :
    Host.gather d x idx (ix2 e f) = x (ix2 (clampIdx N hN (idx (ix2 e 0))) f) := by
  -- the slice is one row high, so the clamp's upper end is N - 1
  have hsl : d.sliceSizes 0 = 1 := d.slice_collapsed 0 (by rw [hcoll]; exact List.mem_singleton.mpr rfl)
  obtain ⟨od, cd, ob, sb, sim, iv, ss, wf⟩ := d
  simp only at hoff hcoll hob hsim hivd hsl
  subst hoff hcoll hob hsim hivd
  unfold Host.gather
  congr 1
  funext a
  apply Fin.ext
  match a with
  | ⟨0, _⟩ =>
    -- the row: the clamped start, no batching or offset coordinate
    show GatherDims.start _ _ idx 0 + GatherDims.batchCoord _ _ 0 + GatherDims.offCoord _ _ 0
      = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    show min (idx _).toInt.toNat (N - ss 0) = _
    rw [hsl]
    congr 3
    congr 1
    funext b
    apply Fin.ext
    match b with
    | ⟨0, _⟩ => rfl
    | ⟨1, _⟩ => rfl
  | ⟨1, _⟩ =>
    -- the column: start 0 (the axis is not start-indexed), the offset coordinate the result's
    show GatherDims.start _ _ idx 1 + GatherDims.batchCoord _ _ 1 + GatherDims.offCoord _ _ 1 = f.val
    have h1 : (1 : Fin (⟨2, ![N, C]⟩ : Shape).rank) ∉ [(0 : Fin (⟨2, ![N, C]⟩ : Shape).rank)] :=
      (by decide : (1 : Fin 2) ∉ [(0 : Fin 2)])
    rw [GatherDims.batchCoord_eq_zero _ _ _ List.not_mem_nil]
    unfold GatherDims.start GatherDims.offCoord
    rw [dif_neg h1, dif_pos ((GatherDims.mem_sKept _ _).mpr ⟨h1, List.not_mem_nil⟩)]
    simp only [Nat.zero_add, Nat.add_zero]
    rfl

/-! ## The accumulating scatter along the first axis, read at an index -/

/-- An update lands at `i` exactly when, on every operand axis, its start plus its window coordinate is `i`'s
    coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  constructor
  · intro h a
    split at h
    · rename_i hall
      have hfa := congrArg Fin.val (congrFun (Option.some.inj h) a)
      have h0 := (hall a).1
      simp only at hfa
      omega
    · exact absurd h (by simp)
  · intro h
    have hall : ∀ a, 0 ≤ d.start j idx a + (d.window j a : ℤ) ∧ d.start j idx a + (d.window j a : ℤ) < (s.size a : ℤ) := by
      intro a
      have h1 := h a
      have h2 := (i a).isLt
      constructor <;> omega
    rw [dif_pos hall]
    congr 1
    funext a
    apply Fin.ext
    show (d.start j idx a + (d.window j a : ℤ)).toNat = (i a).val
    have h1 := h a
    omega

/-! ### Rank 1: `[N]` at a column `[E, 1]` of scatter indices, updates `[E]` -/

section Rank1
variable {N E : Nat} (d : ScatterDims ⟨1, ![N]⟩ ⟨2, ![E, 1]⟩ ⟨1, ![E]⟩)
  (huw : d.updateWindowDims = []) (hiw : d.insertedWindowDims = [0])
  (hsd : d.scatterDimsToOperandDims = [0]) (hivd : d.indexVectorDim = 1)
include huw hiw hsd hivd

/-- Update `j`'s start on the operand's axis is the signed value of scatter index `j`. -/
theorem start1 {w : Nat} (idx : IVec ⟨2, ![E, 1]⟩ w) (j : (⟨1, ![E]⟩ : Shape).Idx) :
    d.start j idx 0 = (idx (ix2 (j 0) 0)).toInt := by
  obtain ⟨uw, iw, sd, iv, wf⟩ := d
  simp only at huw hiw hsd hivd
  subst huw hiw hsd hivd
  unfold ScatterDims.start
  rw [dif_pos (List.mem_singleton.mpr rfl)]
  congr 2
  funext b
  apply Fin.ext
  match b with
  | ⟨0, _⟩ => rfl
  | ⟨1, _⟩ => rfl

/-- The operand's axis is an inserted one: no window coordinate on it. -/
theorem window1 (j : (⟨1, ![E]⟩ : Shape).Idx) : d.window j 0 = 0 := by
  obtain ⟨uw, iw, sd, iv, wf⟩ := d
  simp only at huw hiw hsd hivd
  subst huw hiw hsd hivd
  unfold ScatterDims.window
  rw [dif_neg (by simp [ScatterDims.sKept, Shape.kept])]

/-- Update `j` lands at `i` exactly when scatter index `j`'s signed value is `i`'s coordinate. -/
theorem resultIdx1_eq_some_iff {w : Nat} (idx : IVec ⟨2, ![E, 1]⟩ w) (j : (⟨1, ![E]⟩ : Shape).Idx)
    (i : (⟨1, ![N]⟩ : Shape).Idx) :
    d.resultIdx? j idx = some i ↔ (idx (ix2 (j 0) 0)).toInt = ((i 0).val : ℤ) := by
  rw [resultIdx?_eq_some_iff]
  constructor
  · intro h
    have h0 := h 0
    rw [start1 d huw hiw hsd hivd, window1 d huw hiw hsd hivd] at h0
    simpa using h0
  · intro h a
    obtain rfl : a = 0 := Subsingleton.elim _ _
    rw [start1 d huw hiw hsd hivd, window1 d huw hiw hsd hivd]
    simpa using h

/-- THE SCATTER-ADD READ AT `i`: the operand's element plus the sum of the updates whose scatter index, read
    signed, is exactly `i` (an index below `0` or at or past `N` meets no `i`: that update is dropped). -/
theorem scatterAdd1_apply {φ : FTy}
    (x : FVec Ideal ⟨1, ![N]⟩ φ) (idx : IVec ⟨2, ![E, 1]⟩ 32) (upd : FVec Ideal ⟨1, ![E]⟩ φ) (i : Fin N) :
    Host.scatterAdd (F := Ideal) d x idx upd (ix1 i)
      = x (ix1 i) + ∑ e ∈ Finset.univ.filter (fun e : Fin E => (idx (ix2 e 0)).toInt = (i.val : ℤ)), upd (ix1 e) := by
  show x (ix1 i) + ∑ j ∈ Finset.univ.filter (fun j => d.resultIdx? j idx = some (ix1 i)), upd j = _
  congr 1
  refine Finset.sum_nbij' (fun j => j 0) ix1 ?_ ?_ ?_ ?_ ?_
  · intro j hj
    exact Finset.mem_filter.mpr ⟨Finset.mem_univ _,
      (resultIdx1_eq_some_iff d huw hiw hsd hivd idx j (ix1 i)).mp (Finset.mem_filter.mp hj).2⟩
  · intro e he
    exact Finset.mem_filter.mpr ⟨Finset.mem_univ _,
      (resultIdx1_eq_some_iff d huw hiw hsd hivd idx (ix1 e) (ix1 i)).mpr (Finset.mem_filter.mp he).2⟩
  · intro j _
    exact (eq_ix1 j).symm
  · intro e _
    rfl
  · intro j _
    exact congrArg upd (eq_ix1 j)

end Rank1

/-! ### Rank 2: whole rows of `[N, C]` at a column `[E, 1]` of scatter indices, updates `[E, C]` -/

section Rank2
variable {N E C : Nat} (d : ScatterDims ⟨2, ![N, C]⟩ ⟨2, ![E, 1]⟩ ⟨2, ![E, C]⟩)
  (huw : d.updateWindowDims = [1]) (hiw : d.insertedWindowDims = [0])
  (hsd : d.scatterDimsToOperandDims = [0]) (hivd : d.indexVectorDim = 1)
include huw hiw hsd hivd

/-- Update `j`'s start on the row axis is the signed value of scatter index `j 0`. -/
theorem start2_row {w : Nat} (idx : IVec ⟨2, ![E, 1]⟩ w) (j : (⟨2, ![E, C]⟩ : Shape).Idx) :
    d.start j idx 0 = (idx (ix2 (j 0) 0)).toInt := by
  obtain ⟨uw, iw, sd, iv, wf⟩ := d
  simp only at huw hiw hsd hivd
  subst huw hiw hsd hivd
  unfold ScatterDims.start
  rw [dif_pos (List.mem_singleton.mpr rfl)]
  congr 2
  funext b
  apply Fin.ext
  match b with
  | ⟨0, _⟩ => rfl
  | ⟨1, _⟩ => rfl

/-- The column axis is not scatter-indexed: its start is `0`. -/
theorem start2_col {w : Nat} (idx : IVec ⟨2, ![E, 1]⟩ w) (j : (⟨2, ![E, C]⟩ : Shape).Idx) :
    d.start j idx 1 = 0 := by
  obtain ⟨uw, iw, sd, iv, wf⟩ := d
  simp only at huw hiw hsd hivd
  subst huw hiw hsd hivd
  unfold ScatterDims.start
  rw [dif_neg (by decide : (1 : Fin 2) ∉ [(0 : Fin 2)])]

/-- The row axis is an inserted one: no window coordinate on it. -/
theorem window2_row (j : (⟨2, ![E, C]⟩ : Shape).Idx) : d.window j 0 = 0 := by
  obtain ⟨uw, iw, sd, iv, wf⟩ := d
  simp only at huw hiw hsd hivd
  subst huw hiw hsd hivd
  unfold ScatterDims.window
  rw [dif_neg (by simp [ScatterDims.sKept, Shape.kept])]

/-- The column axis carries the update's window coordinate: its column. -/
theorem window2_col (j : (⟨2, ![E, C]⟩ : Shape).Idx) : d.window j 1 = (j 1).val := by
  obtain ⟨uw, iw, sd, iv, wf⟩ := d
  simp only at huw hiw hsd hivd
  subst huw hiw hsd hivd
  unfold ScatterDims.window
  rw [dif_pos (by simp [ScatterDims.sKept, Shape.kept])]
  rfl

/-- Update `j` lands at `i` exactly when scatter index `j 0`'s signed value is `i`'s row and `j`'s column is `i`'s. -/
theorem resultIdx2_eq_some_iff {w : Nat} (idx : IVec ⟨2, ![E, 1]⟩ w) (j : (⟨2, ![E, C]⟩ : Shape).Idx)
    (i : (⟨2, ![N, C]⟩ : Shape).Idx) :
    d.resultIdx? j idx = some i ↔ (idx (ix2 (j 0) 0)).toInt = ((i 0).val : ℤ) ∧ (j 1).val = (i 1).val := by
  rw [resultIdx?_eq_some_iff]
  constructor
  · intro h
    have h0 := h 0
    have h1 := h 1
    rw [start2_row d huw hiw hsd hivd, window2_row d huw hiw hsd hivd] at h0
    rw [start2_col d huw hiw hsd hivd, window2_col d huw hiw hsd hivd] at h1
    refine ⟨by simpa using h0, ?_⟩
    have h1' : ((j 1).val : ℤ) = ((i 1).val : ℤ) := by simpa using h1
    exact_mod_cast h1'
  · rintro ⟨h0, h1⟩ a
    match a with
    | ⟨0, _⟩ =>
      show d.start j idx 0 + (d.window j 0 : ℤ) = ((i 0).val : ℤ)
      rw [start2_row d huw hiw hsd hivd, window2_row d huw hiw hsd hivd]
      simpa using h0
    | ⟨1, _⟩ =>
      show d.start j idx 1 + (d.window j 1 : ℤ) = ((i 1).val : ℤ)
      rw [start2_col d huw hiw hsd hivd, window2_col d huw hiw hsd hivd, h1]
      simp

/-- THE SCATTER-ADD READ AT `(i, f)`: the operand's element plus the sum, over the updates' rows whose scatter
    index, read signed, is exactly `i`, of that row's column `f` (an index below `0` or at or past `N` meets no
    `i`: that row is dropped). -/
theorem scatterAdd2_apply {φ : FTy}
    (x : FVec Ideal ⟨2, ![N, C]⟩ φ) (idx : IVec ⟨2, ![E, 1]⟩ 32) (upd : FVec Ideal ⟨2, ![E, C]⟩ φ) (i : Fin N) (f : Fin C) :
    Host.scatterAdd (F := Ideal) d x idx upd (ix2 i f)
      = x (ix2 i f) + ∑ e ∈ Finset.univ.filter (fun e : Fin E => (idx (ix2 e 0)).toInt = (i.val : ℤ)), upd (ix2 e f) := by
  show x (ix2 i f) + ∑ j ∈ Finset.univ.filter (fun j => d.resultIdx? j idx = some (ix2 i f)), upd j = _
  congr 1
  -- on the updates that land at (i, f) the column is f: such an update is (its row, f)
  have hcol : ∀ j : (⟨2, ![E, C]⟩ : Shape).Idx, d.resultIdx? j idx = some (ix2 i f) → j = ix2 (j 0) f := fun j hj => by
    have h1 := ((resultIdx2_eq_some_iff d huw hiw hsd hivd idx j (ix2 i f)).mp hj).2
    have hf : j 1 = f := Fin.ext h1
    rw [← hf]
    exact eq_ix2 j
  refine Finset.sum_nbij' (fun j => j 0) (fun e => ix2 e f) ?_ ?_ ?_ ?_ ?_
  · intro j hj
    exact Finset.mem_filter.mpr ⟨Finset.mem_univ _,
      ((resultIdx2_eq_some_iff d huw hiw hsd hivd idx j (ix2 i f)).mp (Finset.mem_filter.mp hj).2).1⟩
  · intro e he
    exact Finset.mem_filter.mpr ⟨Finset.mem_univ _,
      (resultIdx2_eq_some_iff d huw hiw hsd hivd idx (ix2 e f) (ix2 i f)).mpr ⟨(Finset.mem_filter.mp he).2, rfl⟩⟩
  · intro j hj
    exact (hcol j (Finset.mem_filter.mp hj).2).symm
  · intro e _
    rfl
  · intro j hj
    exact congrArg upd (hcol j (Finset.mem_filter.mp hj).2)

end Rank2

/-! ## The negative-index wrap and the column of indices, read at an index -/

/-- The negative-index wrap on one word: a negative index counts from the end, `n` the axis's extent. -/
def wrapW (n : BitVec 32) (v : BitVec 32) : BitVec 32 := if v.toInt < 0 then v + n else v

/-- A non-negative index is left alone. -/
theorem wrapW_of_nonneg {n v : BitVec 32} (h : 0 ≤ v.toInt) : wrapW n v = v := by
  unfold wrapW
  rw [if_neg (not_lt.mpr h)]

/-- The wrap as the select of "`v < 0`, signed" between `v + n` and `v`, the zero and `n` scalars broadcast to
    `v`'s shape, read at an index: the wrap of the word there. -/
theorem wrap_apply {s : Shape} (h0 hn : (⟨0, ![]⟩ : Shape).BroadcastsInDim s ![]) (n : BitVec 32) (v : IVec s 32)
    (i : s.Idx) :
    select (cmpi .slt v (broadcastInDim s ![] h0 (constantI ⟨0, ![]⟩ 32 0#32)))
      (addi v (broadcastInDim s ![] hn (constantI ⟨0, ![]⟩ 32 n))) v i = wrapW n (v i) := by
  show Scalar.select (IntOp.cmpi .slt (v i) 0#32) (IntOp.addi (v i) n) (v i) = wrapW n (v i)
  unfold wrapW
  by_cases hlt : (v i).toInt < 0
  · have hc : IntOp.cmpi .slt (v i) 0#32 = 1#1 := by
      simp [IntOp.cmpi, BitVec.slt, hlt]
    rw [hc, select_one, if_pos hlt]
    rfl
  · have hc : IntOp.cmpi .slt (v i) 0#32 = 0#1 := by
      simp [IntOp.cmpi, BitVec.slt, hlt]
    rw [hc, select_zero, if_neg hlt]

/-- A vector `[E]` laid out as the column `[E, 1]` reads, at `(e, 0)`, the vector at `e`. -/
theorem bcast_col_apply {α : Type} {E : Nat} (h : (⟨1, ![E]⟩ : Shape).BroadcastsInDim ⟨2, ![E, 1]⟩ ![0])
    (v : (⟨1, ![E]⟩ : Shape).Idx → α) (e : Fin E) (z : Fin 1) :
    broadcastInDim ⟨2, ![E, 1]⟩ ![0] h v (ix2 e z) = v (ix1 e) := by
  unfold broadcastInDim
  congr 1
  funext a
  obtain rfl : a = 0 := Subsingleton.elim _ _
  apply Fin.ext
  split
  · rename_i h1
    have hE : E = 1 := h1
    have he := e.isLt
    show 0 = e.val
    omega
  · rfl

end Cert.LibGatherScatter

end
-- ==== Proof.Spec.lean ====
/-
  What the two programs compute, index by index, over the extended reals.

  A node's row `x[r, ·]` of 256 features goes through two independent two-layer perceptrons.
  Each first layer is `max (∑ₖ x[r,k]·W[k,u] + b[u]) 0` (`hid`). The node score is the logistic
  function of the second layer's single output (`nodeScore`); the edge feature is the second
  layer's 64 outputs with no activation (`edgeFeat`). An edge `e` names two nodes by integer ids;
  its score is the logistic function of the dot product of the two nodes' edge-feature rows
  (`edgeDot` over already gathered rows, `edgeScore` over the feature table and the ids).

  An id is read as array indexing reads it: a negative id counts from the end (`wrapW`), and the
  result is clamped into the table (`clampIdx`); for an id in `[-50000, 50000)` the clamp does
  nothing. Everything is generic in the number of rows, so that a block of rows and the whole
  array are instances of one function; each function of a row depends on that row only
  (`*_congr_row`).
-/
import Idealize.ShloMosaic.PureOps.Ideal
import Idealize.ShloMosaic.Lib.ValueIdx
import proofs.«404946_j60833916780728_3_alg».proof.Proof.LibGatherScatter
import Mathlib.Algebra.BigOperators.Group.Finset.Basic

noncomputable section

namespace Cert.Spec

open Idealize.ShloMosaic Idealize.ShloMosaic.ValueIdx Cert.LibGatherScatter
open scoped BigOperators

/-- A real-valued array of `n` rows and `d` columns, as the programs hold it at the ideal instance. -/
abbrev Mat (n d : Nat) : Type := (⟨2, ![n, d]⟩ : Shape).Idx → EReal
/-- A vector of `d` entries. -/
abbrev Vct (d : Nat) : Type := (⟨1, ![d]⟩ : Shape).Idx → EReal

/-- First layer with its rectifier, at row `r` and hidden unit `u`: `max (∑ₖ x[r,k]·W[k,u] + b[u]) 0`. -/
def hid {n : Nat} (x : Mat n 256) (W : Mat 256 256) (b : Vct 256) (r : Fin n) (u : Fin 256) : EReal :=
  max ((∑ k : Fin 256, x (ix2 r k) * W (ix2 k u)) + b (ix1 u)) 0

/-- The node score of row `r`: the logistic function of `∑ᵤ hid[r,u]·W₂[u,0] + b₂[0]`. -/
def nodeScore {n : Nat} (x : Mat n 256) (W1 : Mat 256 256) (b1 : Vct 256) (W2 : Mat 256 1) (b2 : Vct 1)
    (r : Fin n) : EReal :=
  Ideal.logistic ((∑ u : Fin 256, hid x W1 b1 r u * W2 (ix2 u 0)) + b2 (ix1 0))

/-- The edge feature of row `r`, column `f`: `∑ᵤ hid[r,u]·W₂[u,f] + b₂[f]`. -/
def edgeFeat {n : Nat} (x : Mat n 256) (W1 : Mat 256 256) (b1 : Vct 256) (W2 : Mat 256 64) (b2 : Vct 64)
    (r : Fin n) (f : Fin 64) : EReal :=
  (∑ u : Fin 256, hid x W1 b1 r u * W2 (ix2 u f)) + b2 (ix1 f)

/-- The logistic function of the dot product of row `e` of `a` with row `e` of `b`. -/
def edgeDot {E : Nat} (a b : Mat E 64) (e : Fin E) : EReal :=
  Ideal.logistic (∑ k : Fin 64, a (ix2 e k) * b (ix2 e k))

/-- The table row an id names: the id wrapped from the end if negative, then clamped into the table. -/
def rowOf (ids : IVec (⟨2, ![2, 1600000]⟩ : Shape) 32) (s : Fin 2) (e : Fin 1600000) : Fin 50000 :=
  clampIdx 50000 (by decide) (wrapW 50000#32 (ids (ix2 s e)))

/-- The score of edge `e`: the logistic function of the dot product of its two nodes' feature rows. -/
def edgeScore (feat : Mat 50000 64) (ids : IVec (⟨2, ![2, 1600000]⟩ : Shape) 32) (e : Fin 1600000) : EReal :=
  Ideal.logistic (∑ k : Fin 64, feat (ix2 (rowOf ids 0 e) k) * feat (ix2 (rowOf ids 1 e) k))

/-- Every id lies where indexing a 50000-row table is defined: in `[-50000, 50000)`. -/
def InRange (ids : IVec (⟨2, ![2, 1600000]⟩ : Shape) 32) : Prop :=
  ∀ (s : Fin 2) (e : Fin 1600000), -50000 ≤ (ids (ix2 s e)).toInt ∧ (ids (ix2 s e)).toInt < 50000

/-! ## Each row's value depends on that row only -/

theorem hid_congr_row {n n' : Nat} {x : Mat n 256} {x' : Mat n' 256} (W : Mat 256 256) (b : Vct 256)
    {r : Fin n} {r' : Fin n'} (h : ∀ k : Fin 256, x (ix2 r k) = x' (ix2 r' k)) (u : Fin 256) :
    hid x W b r u = hid x' W b r' u := by
  unfold hid
  simp only [h]

theorem nodeScore_congr_row {n n' : Nat} {x : Mat n 256} {x' : Mat n' 256} (W1 : Mat 256 256) (b1 : Vct 256)
    (W2 : Mat 256 1) (b2 : Vct 1) {r : Fin n} {r' : Fin n'} (h : ∀ k : Fin 256, x (ix2 r k) = x' (ix2 r' k)) :
    nodeScore x W1 b1 W2 b2 r = nodeScore x' W1 b1 W2 b2 r' := by
  unfold nodeScore
  simp only [hid_congr_row W1 b1 h]

theorem edgeFeat_congr_row {n n' : Nat} {x : Mat n 256} {x' : Mat n' 256} (W1 : Mat 256 256) (b1 : Vct 256)
    (W2 : Mat 256 64) (b2 : Vct 64) {r : Fin n} {r' : Fin n'} (h : ∀ k : Fin 256, x (ix2 r k) = x' (ix2 r' k))
    (f : Fin 64) : edgeFeat x W1 b1 W2 b2 r f = edgeFeat x' W1 b1 W2 b2 r' f := by
  unfold edgeFeat
  simp only [hid_congr_row W1 b1 h]

theorem edgeDot_congr_row {E E' : Nat} {a b : Mat E 64} {a' b' : Mat E' 64} {e : Fin E} {e' : Fin E'}
    (ha : ∀ k : Fin 64, a (ix2 e k) = a' (ix2 e' k)) (hb : ∀ k : Fin 64, b (ix2 e k) = b' (ix2 e' k)) :
    edgeDot a b e = edgeDot a' b' e' := by
  unfold edgeDot
  simp only [ha, hb]

/-- The edge score is the dot-product score of the two gathered row tables. -/
theorem edgeScore_eq_edgeDot (feat : Mat 50000 64) (ids : IVec (⟨2, ![2, 1600000]⟩ : Shape) 32)
    (a b : Mat 1600000 64) (e : Fin 1600000)
    (ha : ∀ k : Fin 64, a (ix2 e k) = feat (ix2 (rowOf ids 0 e) k))
    (hb : ∀ k : Fin 64, b (ix2 e k) = feat (ix2 (rowOf ids 1 e) k)) :
    edgeDot a b e = edgeScore feat ids e := by
  unfold edgeDot edgeScore
  simp only [ha, hb]

/-! ## An id in range, wrapped, is a row of the table -/

/-- For an id in `[-50000, 50000)` the wrapped id lies in `[0, 50000)`. -/
theorem wrapW_inRange {v : BitVec 32} (h0 : -50000 ≤ v.toInt) (h1 : v.toInt < 50000) :
    0 ≤ (wrapW 50000#32 v).toInt ∧ (wrapW 50000#32 v).toInt < 50000 := by
  unfold wrapW
  by_cases hneg : v.toInt < 0
  · rw [if_pos hneg]
    have hadd : (v + 50000#32).toInt = v.toInt + 50000 := by
      rw [BitVec.toInt_add]
      have : (50000#32 : BitVec 32).toInt = 50000 := by decide
      rw [this]
      have h2 : (0 : Int) ≤ v.toInt + 50000 := by omega
      have h3 : v.toInt + 50000 < 50000 := by omega
      rw [Int.bmod_eq_of_le (by omega) (by omega)]
    rw [hadd]
    omega
  · rw [if_neg hneg]
    omega

end Cert.Spec

end
-- ==== Proof.Region0Value.lean ====
/- Region 0 (the node and edge perceptrons over 10 blocks of 5000 rows): the two output arrays after the region. -/
import proofs.«404946_j60833916780728_3_alg».proof.Proof.Gen.KernelIdeal.Frame
import proofs.«404946_j60833916780728_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Idealize.ShloMosaic Idealize.ShloMosaic.TcCoe Idealize.ShloMosaic.ValueIdx Idealize.SL.Sem
open Cert.KernelIdeal Cert.KernelIdeal.Gen
open scoped BigOperators

/-! ## A bias row spread over the rows of a block

The body turns a bias vector of `b` entries into a one-row matrix and repeats that row down the block:
at `(p, c)` the result is the bias at `c`. -/

theorem bias_rows_apply {α : Type} {a b : ℕ} (v : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (c : Fin b) :
    broadcastTo ⟨2, ![a, b]⟩ (shapeCast ⟨2, ![1, b]⟩ v h1) h2 (ix2 p c) = v (ix1 c) := by
  rw [broadcastTo_1b_ab_apply]
  refine (shapeCast_addUnit_apply ![b] v h1 _).trans (congrArg v ?_)
  funext d
  match d with
  | ⟨0, _⟩ => rfl

/-! ## The three matrix products, read at an index

Each product contracts the second axis of its left factor with the first axis of its right factor and
accumulates into zero, so at `(p, u)` it is `∑ₖ l[p,k]·r[k,u]`. -/

section A
theorem lhsA_0 (i : S5000x256.Idx) (q : dot_S5000x256_S256x256_S5000x256_1_0_0_1_n_n.contr.Idx) :
    (dot_S5000x256_S256x256_S5000x256_1_0_0_1_n_n.lhsIdx i q 0).val = (i 0).val := by
  unfold DotDims.lhsIdx
  rw [dif_neg (show ¬(0 : Fin S5000x256.rank) ∈ dot_S5000x256_S256x256_S5000x256_1_0_0_1_n_n.lhsBatch by decide), dif_pos (show (0 : Fin S5000x256.rank) ∈ dot_S5000x256_S256x256_S5000x256_1_0_0_1_n_n.lhsNonContracting by decide)]
  rfl
theorem lhsA_1 (i : S5000x256.Idx) (q : dot_S5000x256_S256x256_S5000x256_1_0_0_1_n_n.contr.Idx) :
    (dot_S5000x256_S256x256_S5000x256_1_0_0_1_n_n.lhsIdx i q 1).val = (q ⟨0, by decide⟩).val :=
  dot_S5000x256_S256x256_S5000x256_1_0_0_1_n_n.lhsIdx_val_of_single rfl i q
theorem rhsA_0 (i : S5000x256.Idx) (q : dot_S5000x256_S256x256_S5000x256_1_0_0_1_n_n.contr.Idx) :
    (dot_S5000x256_S256x256_S5000x256_1_0_0_1_n_n.rhsIdx i q 0).val = (q ⟨0, by decide⟩).val :=
  dot_S5000x256_S256x256_S5000x256_1_0_0_1_n_n.rhsIdx_val_of_single rfl i q
theorem rhsA_1 (i : S5000x256.Idx) (q : dot_S5000x256_S256x256_S5000x256_1_0_0_1_n_n.contr.Idx) :
    (dot_S5000x256_S256x256_S5000x256_1_0_0_1_n_n.rhsIdx i q 1).val = (i 1).val := by
  unfold DotDims.rhsIdx
  rw [dif_neg (show ¬(1 : Fin S256x256.rank) ∈ dot_S5000x256_S256x256_S5000x256_1_0_0_1_n_n.rhsBatch by decide), dif_pos (show (1 : Fin S256x256.rank) ∈ dot_S5000x256_S256x256_S5000x256_1_0_0_1_n_n.rhsNonContracting by decide)]
  rfl

/-- The first layer's product (5000×256 by 256×256) at `(p, u)`. -/
theorem prodA_apply {φ₁ φ₂ : FTy} (l : FVec Ideal S5000x256 φ₁) (r : FVec Ideal S256x256 φ₂) (p : Fin 5000) (u : Fin 256) :
    matmul dot_S5000x256_S256x256_S5000x256_1_0_0_1_n_n none l r (constant (F := Ideal) S5000x256 .f32 0x00000000#32) (ix2 p u)
      = ∑ k : Fin 256, l (ix2 p k) * r (ix2 k u) := by
  simp only [matmul]
  rw [Ideal.matmul_constant_zero_apply, ← Equiv.sum_comp (ValueIdx.contrEquiv1 dot_S5000x256_S256x256_S5000x256_1_0_0_1_n_n 256 rfl rfl).symm]
  refine Finset.sum_congr rfl fun k _ => ?_
  have hk := ValueIdx.contrEquiv1_symm_val dot_S5000x256_S256x256_S5000x256_1_0_0_1_n_n 256 rfl rfl k
  have el : dot_S5000x256_S256x256_S5000x256_1_0_0_1_n_n.lhsIdx (ix2 p u) ((ValueIdx.contrEquiv1 dot_S5000x256_S256x256_S5000x256_1_0_0_1_n_n 256 rfl rfl).symm k) = ix2 p k := funext fun a => Fin.ext (by
    match a with
    | ⟨0, _⟩ => exact lhsA_0 _ _
    | ⟨1, _⟩ => exact (lhsA_1 _ _).trans hk)
  have er : dot_S5000x256_S256x256_S5000x256_1_0_0_1_n_n.rhsIdx (ix2 p u) ((ValueIdx.contrEquiv1 dot_S5000x256_S256x256_S5000x256_1_0_0_1_n_n 256 rfl rfl).symm k) = ix2 k u := funext fun a => Fin.ext (by
    match a with
    | ⟨0, _⟩ => exact (rhsA_0 _ _).trans hk
    | ⟨1, _⟩ => exact rhsA_1 _ _)
  rw [el, er]
end A

section B
theorem lhsB_0 (i : S5000x1.Idx) (q : dot_S5000x256_S256x1_S5000x1_1_0_0_1_n_n.contr.Idx) :
    (dot_S5000x256_S256x1_S5000x1_1_0_0_1_n_n.lhsIdx i q 0).val = (i 0).val := by
  unfold DotDims.lhsIdx
  rw [dif_neg (show ¬(0 : Fin S5000x256.rank) ∈ dot_S5000x256_S256x1_S5000x1_1_0_0_1_n_n.lhsBatch by decide), dif_pos (show (0 : Fin S5000x256.rank) ∈ dot_S5000x256_S256x1_S5000x1_1_0_0_1_n_n.lhsNonContracting by decide)]
  rfl
theorem lhsB_1 (i : S5000x1.Idx) (q : dot_S5000x256_S256x1_S5000x1_1_0_0_1_n_n.contr.Idx) :
    (dot_S5000x256_S256x1_S5000x1_1_0_0_1_n_n.lhsIdx i q 1).val = (q ⟨0, by decide⟩).val :=
  dot_S5000x256_S256x1_S5000x1_1_0_0_1_n_n.lhsIdx_val_of_single rfl i q
theorem rhsB_0 (i : S5000x1.Idx) (q : dot_S5000x256_S256x1_S5000x1_1_0_0_1_n_n.contr.Idx) :
    (dot_S5000x256_S256x1_S5000x1_1_0_0_1_n_n.rhsIdx i q 0).val = (q ⟨0, by decide⟩).val :=
  dot_S5000x256_S256x1_S5000x1_1_0_0_1_n_n.rhsIdx_val_of_single rfl i q
theorem rhsB_1 (i : S5000x1.Idx) (q : dot_S5000x256_S256x1_S5000x1_1_0_0_1_n_n.contr.Idx) :
    (dot_S5000x256_S256x1_S5000x1_1_0_0_1_n_n.rhsIdx i q 1).val = (i 1).val := by
  unfold DotDims.rhsIdx
  rw [dif_neg (show ¬(1 : Fin S256x1.rank) ∈ dot_S5000x256_S256x1_S5000x1_1_0_0_1_n_n.rhsBatch by decide), dif_pos (show (1 : Fin S256x1.rank) ∈ dot_S5000x256_S256x1_S5000x1_1_0_0_1_n_n.rhsNonContracting by decide)]
  rfl

/-- The score head's product (5000×256 by 256×1) at `(p, u)`. -/
theorem prodB_apply {φ₁ φ₂ : FTy} (l : FVec Ideal S5000x256 φ₁) (r : FVec Ideal S256x1 φ₂) (p : Fin 5000) (u : Fin 1) :
    matmul dot_S5000x256_S256x1_S5000x1_1_0_0_1_n_n none l r (constant (F := Ideal) S5000x1 .f32 0x00000000#32) (ix2 p u)
      = ∑ k : Fin 256, l (ix2 p k) * r (ix2 k u) := by
  simp only [matmul]
  rw [Ideal.matmul_constant_zero_apply, ← Equiv.sum_comp (ValueIdx.contrEquiv1 dot_S5000x256_S256x1_S5000x1_1_0_0_1_n_n 256 rfl rfl).symm]
  refine Finset.sum_congr rfl fun k _ => ?_
  have hk := ValueIdx.contrEquiv1_symm_val dot_S5000x256_S256x1_S5000x1_1_0_0_1_n_n 256 rfl rfl k
  have el : dot_S5000x256_S256x1_S5000x1_1_0_0_1_n_n.lhsIdx (ix2 p u) ((ValueIdx.contrEquiv1 dot_S5000x256_S256x1_S5000x1_1_0_0_1_n_n 256 rfl rfl).symm k) = ix2 p k := funext fun a => Fin.ext (by
    match a with
    | ⟨0, _⟩ => exact lhsB_0 _ _
    | ⟨1, _⟩ => exact (lhsB_1 _ _).trans hk)
  have er : dot_S5000x256_S256x1_S5000x1_1_0_0_1_n_n.rhsIdx (ix2 p u) ((ValueIdx.contrEquiv1 dot_S5000x256_S256x1_S5000x1_1_0_0_1_n_n 256 rfl rfl).symm k) = ix2 k u := funext fun a => Fin.ext (by
    match a with
    | ⟨0, _⟩ => exact (rhsB_0 _ _).trans hk
    | ⟨1, _⟩ => exact rhsB_1 _ _)
  rw [el, er]
end B

section C
theorem lhsC_0 (i : S5000x64.Idx) (q : dot_S5000x256_S256x64_S5000x64_1_0_0_1_n_n.contr.Idx) :
    (dot_S5000x256_S256x64_S5000x64_1_0_0_1_n_n.lhsIdx i q 0).val = (i 0).val := by
  unfold DotDims.lhsIdx
  rw [dif_neg (show ¬(0 : Fin S5000x256.rank) ∈ dot_S5000x256_S256x64_S5000x64_1_0_0_1_n_n.lhsBatch by decide), dif_pos (show (0 : Fin S5000x256.rank) ∈ dot_S5000x256_S256x64_S5000x64_1_0_0_1_n_n.lhsNonContracting by decide)]
  rfl
theorem lhsC_1 (i : S5000x64.Idx) (q : dot_S5000x256_S256x64_S5000x64_1_0_0_1_n_n.contr.Idx) :
    (dot_S5000x256_S256x64_S5000x64_1_0_0_1_n_n.lhsIdx i q 1).val = (q ⟨0, by decide⟩).val :=
  dot_S5000x256_S256x64_S5000x64_1_0_0_1_n_n.lhsIdx_val_of_single rfl i q
theorem rhsC_0 (i : S5000x64.Idx) (q : dot_S5000x256_S256x64_S5000x64_1_0_0_1_n_n.contr.Idx) :
    (dot_S5000x256_S256x64_S5000x64_1_0_0_1_n_n.rhsIdx i q 0).val = (q ⟨0, by decide⟩).val :=
  dot_S5000x256_S256x64_S5000x64_1_0_0_1_n_n.rhsIdx_val_of_single rfl i q
theorem rhsC_1 (i : S5000x64.Idx) (q : dot_S5000x256_S256x64_S5000x64_1_0_0_1_n_n.contr.Idx) :
    (dot_S5000x256_S256x64_S5000x64_1_0_0_1_n_n.rhsIdx i q 1).val = (i 1).val := by
  unfold DotDims.rhsIdx
  rw [dif_neg (show ¬(1 : Fin S256x64.rank) ∈ dot_S5000x256_S256x64_S5000x64_1_0_0_1_n_n.rhsBatch by decide), dif_pos (show (1 : Fin S256x64.rank) ∈ dot_S5000x256_S256x64_S5000x64_1_0_0_1_n_n.rhsNonContracting by decide)]
  rfl

/-- The feature head's product (5000×256 by 256×64) at `(p, u)`. -/
theorem prodC_apply {φ₁ φ₂ : FTy} (l : FVec Ideal S5000x256 φ₁) (r : FVec Ideal S256x64 φ₂) (p : Fin 5000) (u : Fin 64) :
    matmul dot_S5000x256_S256x64_S5000x64_1_0_0_1_n_n none l r (constant (F := Ideal) S5000x64 .f32 0x00000000#32) (ix2 p u)
      = ∑ k : Fin 256, l (ix2 p k) * r (ix2 k u) := by
  simp only [matmul]
  rw [Ideal.matmul_constant_zero_apply, ← Equiv.sum_comp (ValueIdx.contrEquiv1 dot_S5000x256_S256x64_S5000x64_1_0_0_1_n_n 256 rfl rfl).symm]
  refine Finset.sum_congr rfl fun k _ => ?_
  have hk := ValueIdx.contrEquiv1_symm_val dot_S5000x256_S256x64_S5000x64_1_0_0_1_n_n 256 rfl rfl k
  have el : dot_S5000x256_S256x64_S5000x64_1_0_0_1_n_n.lhsIdx (ix2 p u) ((ValueIdx.contrEquiv1 dot_S5000x256_S256x64_S5000x64_1_0_0_1_n_n 256 rfl rfl).symm k) = ix2 p k := funext fun a => Fin.ext (by
    match a with
    | ⟨0, _⟩ => exact lhsC_0 _ _
    | ⟨1, _⟩ => exact (lhsC_1 _ _).trans hk)
  have er : dot_S5000x256_S256x64_S5000x64_1_0_0_1_n_n.rhsIdx (ix2 p u) ((ValueIdx.contrEquiv1 dot_S5000x256_S256x64_S5000x64_1_0_0_1_n_n 256 rfl rfl).symm k) = ix2 k u := funext fun a => Fin.ext (by
    match a with
    | ⟨0, _⟩ => exact (rhsC_0 _ _).trans hk
    | ⟨1, _⟩ => exact rhsC_1 _ _)
  rw [el, er]
end C

/-! ## The body's arithmetic, read at an index -/

/-- The first layer as the body computes it on a block: product, bias row, rectifier. -/
def hidBlock (x : Vec Ideal S5000x256 .f32) (W : Vec Ideal S256x256 .f32) (b : Vec Ideal S256 .f32) : FVec Ideal S5000x256 .f32 :=
  maximumf (addf (matmul dot_S5000x256_S256x256_S5000x256_1_0_0_1_n_n none (k0_pay2 x) (truncf .bf16 W bitsLt_bf16_f32) (constant S5000x256 .f32 0x00000000#32))
      (broadcastTo S5000x256 (shapeCast S1x256 b shapeCasts_S256_S1x256) broadcasts_S1x256_S5000x256))
    (broadcast S5000x256 (Scalar.ofBits .f32 0x00000000#32))

/-- At `(p, u)` it is the specification's hidden unit: the change of float format is the identity on the
    extended reals and the zero word is `0`. -/
theorem hidBlock_apply (x : Vec Ideal S5000x256 .f32) (W : Vec Ideal S256x256 .f32) (b : Vec Ideal S256 .f32) (p : Fin 5000) (u : Fin 256) :
    hidBlock x W b (ix2 p u) = Spec.hid x W b p u := by
  unfold hidBlock Spec.hid
  rw [maximumf_apply, addf_apply, prodA_apply, bias_rows_apply, broadcast_apply]
  show max _ (Ideal.ofBits .f32 0x00000000#32) = _
  rw [Ideal.ofBits_zero_f32]
  rfl

/-- The logistic function applied entrywise, at an index. -/
theorem logistic_at {s : Shape} {φ : FTy} (a : FVec Ideal s φ) (i : s.Idx) : logistic a i = Ideal.logistic (a i) := rfl

/-- The score payload is the logistic function of the score head applied to the first layer. -/
theorem pay3_eq (x0 : Vec Ideal S5000x256 .f32) (x1 : Vec Ideal S256x256 .f32) (x2 : Vec Ideal S256 .f32) (x3 : Vec Ideal S256x1 .f32) (x4 : Vec Ideal S1 .f32) :
    k0_pay3 x0 x1 x2 x3 x4 = logistic (addf (matmul dot_S5000x256_S256x1_S5000x1_1_0_0_1_n_n none (truncf .bf16 (hidBlock x0 x1 x2) bitsLt_bf16_f32) (truncf .bf16 x3 bitsLt_bf16_f32) (constant S5000x1 .f32 0x00000000#32))
      (broadcastTo S5000x1 (shapeCast S1x1 x4 shapeCasts_S1_S1x1) broadcasts_S1x1_S5000x1)) := rfl

/-- The feature payload before its bias is the feature head applied to the first layer. -/
theorem pay4_eq (x0 : Vec Ideal S5000x256 .f32) (x5 : Vec Ideal S256x256 .f32) (x6 : Vec Ideal S256 .f32) (x7 : Vec Ideal S256x64 .f32) :
    k0_pay4 x0 x5 x6 x7 = matmul dot_S5000x256_S256x64_S5000x64_1_0_0_1_n_n none (truncf .bf16 (hidBlock x0 x5 x6) bitsLt_bf16_f32) (truncf .bf16 x7 bitsLt_bf16_f32) (constant S5000x64 .f32 0x00000000#32) := rfl

/-- The stored feature block adds the bias row to it. -/
theorem pay1_eq (a : FVec Ideal S5000x64 .f32) (x8 : Vec Ideal S64 .f32) :
    k0_pay1 a (k0_pay5 x8) = addf a (broadcastTo S5000x64 (shapeCast S1x64 x8 shapeCasts_S64_S1x64) broadcasts_S1x64_S5000x64) := rfl

/-- The score payload at row `p` of a block is the node score of that row. -/
theorem score_pay_apply (x0 : Vec Ideal S5000x256 .f32) (x1 : Vec Ideal S256x256 .f32) (x2 : Vec Ideal S256 .f32) (x3 : Vec Ideal S256x1 .f32) (x4 : Vec Ideal S1 .f32) (p : Fin 5000) :
    k0_pay3 x0 x1 x2 x3 x4 (ix2 p 0) = Spec.nodeScore x0 x1 x2 x3 x4 p := by
  rw [pay3_eq, logistic_at, addf_apply, prodB_apply, bias_rows_apply]
  unfold Spec.nodeScore
  simp only [truncf_apply, hidBlock_apply]

/-- The feature payload at `(p, f)` of a block is the edge feature of that row and column. -/
theorem feat_pay_apply (x0 : Vec Ideal S5000x256 .f32) (x5 : Vec Ideal S256x256 .f32) (x6 : Vec Ideal S256 .f32) (x7 : Vec Ideal S256x64 .f32) (x8 : Vec Ideal S64 .f32) (p : Fin 5000) (f : Fin 64) :
    k0_pay1 (k0_pay4 x0 x5 x6 x7) (k0_pay5 x8) (ix2 p f) = Spec.edgeFeat x0 x5 x6 x7 x8 p f := by
  rw [pay1_eq, pay4_eq, addf_apply, prodC_apply, bias_rows_apply]
  unfold Spec.edgeFeat
  simp only [truncf_apply, hidBlock_apply]

/-! ## From blocks to the arrays

Point `t` of the grid reads rows `5000·t … 5000·t + 4999` of the node array and the whole of every
weight and bias, and writes the same rows of the two outputs. -/

theorem hz2 : (![0, 0] : Fin 2 → Nat) = fun _ => 0 := funext fun a => by fin_cases a <;> rfl
theorem hz1 : (![0] : Fin 1 → Nat) = fun _ => 0 := funext fun a => by fin_cases a; rfl

/-- The score buffer after the body is the score payload of the loaded blocks. -/
theorem out9_eq (x0 : Vec Ideal S5000x256 .f32) (x1 : Vec Ideal S256x256 .f32) (x2 : Vec Ideal S256 .f32) (x3 : Vec Ideal S256x1 .f32) (x4 : Vec Ideal S1 .f32) (x5 : Vec Ideal S256x256 .f32) (x6 : Vec Ideal S256 .f32) (x7 : Vec Ideal S256x64 .f32) (x8 : Vec Ideal S64 .f32) :
    out0_9 (F := Ideal) x0 x1 x2 x3 x4 x5 x6 x7 x8 = k0_pay3 x0 x1 x2 x3 x4 := by
  unfold out0_9
  rw [View.canon_unit_zero hz2]
  simp only [View.ld_unit_zero (S := S5000x256) hz2, View.ld_unit_zero (S := S256x256) hz2, View.ld_unit_zero (S := S256) hz1,
    View.ld_unit_zero (S := S256x1) hz2, View.ld_unit_zero (S := S1) hz1]

/-- The feature buffer after the body is the feature payload of the loaded blocks. -/
theorem out10_eq (x0 : Vec Ideal S5000x256 .f32) (x1 : Vec Ideal S256x256 .f32) (x2 : Vec Ideal S256 .f32) (x3 : Vec Ideal S256x1 .f32) (x4 : Vec Ideal S1 .f32) (x5 : Vec Ideal S256x256 .f32) (x6 : Vec Ideal S256 .f32) (x7 : Vec Ideal S256x64 .f32) (x8 : Vec Ideal S64 .f32) :
    out0_10 (F := Ideal) x0 x1 x2 x3 x4 x5 x6 x7 x8 = k0_pay1 (k0_pay4 x0 x5 x6 x7) (k0_pay5 x8) := by
  unfold out0_10
  rw [View.canon_unit_zero hz2]
  simp only [View.ld_unit_zero (S := S5000x256) hz2, View.ld_unit_zero (S := S256x256) hz2, View.ld_unit_zero (S := S256) hz1,
    View.ld_unit_zero (S := S256x64) hz2, View.ld_unit_zero (S := S64) hz1]

/-- The printed index maps over the grid: the node block and both output blocks sit at block row `t`, block
    column 0; every weight and bias block is the whole array. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = t.val ∧ win0_9.index t (1 : Fin 2) = 0
    ∧ win0_10.index t (0 : Fin 2) = t.val ∧ win0_10.index t (1 : Fin 2) = 0 :=
  (by decide +kernel : ∀ t : Fin grid0.N, _)

variable (V : (c : Dev nD) → (b : Ref sig .tc) → Buf (Elt Ideal) ((c : Thread nD τ).loc b))

/-! Every weight and bias window's block, at every point, is its whole array. -/

theorem blk1_whole (c : Dev nD) (t : Fin cfg0.N) : (iblk0 V c 1 t : Vec Ideal S256x256 .f32) = V c main_arg3 := by
  obtain ⟨-, -, b0, b1, -, -, -, -, -, -, -, -, -, -, -, -, -, -⟩ := idx_facts t
  funext y
  show V c main_arg3 (((cfg0.win 1).blk t).view.emb y) = V c main_arg3 y
  refine congrArg (V c main_arg3) (funext fun a => Fin.ext ?_)
  match a with
  | ⟨0, _⟩ => show win0_1.index t (0 : Fin 2) * 256 + 1 * (y 0).val = (y 0).val; rw [b0]; omega
  | ⟨1, _⟩ => show win0_1.index t (1 : Fin 2) * 256 + 1 * (y 1).val = (y 1).val; rw [b1]; omega

theorem blk2_whole (c : Dev nD) (t : Fin cfg0.N) : (iblk0 V c 2 t : Vec Ideal S256 .f32) = V c main_arg4 := by
  obtain ⟨-, -, -, -, c0, -, -, -, -, -, -, -, -, -, -, -, -, -⟩ := idx_facts t
  funext y
  show V c main_arg4 (((cfg0.win 2).blk t).view.emb y) = V c main_arg4 y
  refine congrArg (V c main_arg4) (funext fun a => Fin.ext ?_)
  match a with
  | ⟨0, _⟩ => show win0_2.index t (0 : Fin 1) * 256 + 1 * (y 0).val = (y 0).val; rw [c0]; omega

theorem blk3_whole (c : Dev nD) (t : Fin cfg0.N) : (iblk0 V c 3 t : Vec Ideal S256x1 .f32) = V c main_arg5 := by
  obtain ⟨-, -, -, -, -, d0, d1, -, -, -, -, -, -, -, -, -, -, -⟩ := idx_facts t
  funext y
  show V c main_arg5 (((cfg0.win 3).blk t).view.emb y) = V c main_arg5 y
  refine congrArg (V c main_arg5) (funext fun a => Fin.ext ?_)
  match a with
  | ⟨0, _⟩ => show win0_3.index t (0 : Fin 2) * 256 + 1 * (y 0).val = (y 0).val; rw [d0]; omega
  | ⟨1, _⟩ => show win0_3.index t (1 : Fin 2) * 1 + 1 * (y 1).val = (y 1).val; rw [d1]; omega

theorem blk4_whole (c : Dev nD) (t : Fin cfg0.N) : (iblk0 V c 4 t : Vec Ideal S1 .f32) = V c main_arg6 := by
  obtain ⟨-, -, -, -, -, -, -, e0, -, -, -, -, -, -, -, -, -, -⟩ := idx_facts t
  funext y
  show V c main_arg6 (((cfg0.win 4).blk t).view.emb y) = V c main_arg6 y
  refine congrArg (V c main_arg6) (funext fun a => Fin.ext ?_)
  match a with
  | ⟨0, _⟩ => show win0_4.index t (0 : Fin 1) * 1 + 1 * (y 0).val = (y 0).val; rw [e0]; omega

theorem blk5_whole (c : Dev nD) (t : Fin cfg0.N) : (iblk0 V c 5 t : Vec Ideal S256x256 .f32) = V c main_arg7 := by
  obtain ⟨-, -, -, -, -, -, -, -, f0, f1, -, -, -, -, -, -, -, -⟩ := idx_facts t
  funext y
  show V c main_arg7 (((cfg0.win 5).blk t).view.emb y) = V c main_arg7 y
  refine congrArg (V c main_arg7) (funext fun a => Fin.ext ?_)
  match a with
  | ⟨0, _⟩ => show win0_5.index t (0 : Fin 2) * 256 + 1 * (y 0).val = (y 0).val; rw [f0]; omega
  | ⟨1, _⟩ => show win0_5.index t (1 : Fin 2) * 256 + 1 * (y 1).val = (y 1).val; rw [f1]; omega

theorem blk6_whole (c : Dev nD) (t : Fin cfg0.N) : (iblk0 V c 6 t : Vec Ideal S256 .f32) = V c main_arg8 := by
  obtain ⟨-, -, -, -, -, -, -, -, -, -, g0, -, -, -, -, -, -, -⟩ := idx_facts t
  funext y
  show V c main_arg8 (((cfg0.win 6).blk t).view.emb y) = V c main_arg8 y
  refine congrArg (V c main_arg8) (funext fun a => Fin.ext ?_)
  match a with
  | ⟨0, _⟩ => show win0_6.index t (0 : Fin 1) * 256 + 1 * (y 0).val = (y 0).val; rw [g0]; omega

theorem blk7_whole (c : Dev nD) (t : Fin cfg0.N) : (iblk0 V c 7 t : Vec Ideal S256x64 .f32) = V c main_arg9 := by
  obtain ⟨-, -, -, -, -, -, -, -, -, -, -, h0, h1, -, -, -, -, -⟩ := idx_facts t
  funext y
  show V c main_arg9 (((cfg0.win 7).blk t).view.emb y) = V c main_arg9 y
  refine congrArg (V c main_arg9) (funext fun a => Fin.ext ?_)
  match a with
  | ⟨0, _⟩ => show win0_7.index t (0 : Fin 2) * 256 + 1 * (y 0).val = (y 0).val; rw [h0]; omega
  | ⟨1, _⟩ => show win0_7.index t (1 : Fin 2) * 64 + 1 * (y 1).val = (y 1).val; rw [h1]; omega

theorem blk8_whole (c : Dev nD) (t : Fin cfg0.N) : (iblk0 V c 8 t : Vec Ideal S64 .f32) = V c main_arg10 := by
  obtain ⟨-, -, -, -, -, -, -, -, -, -, -, -, -, i0, -, -, -, -⟩ := idx_facts t
  funext y
  show V c main_arg10 (((cfg0.win 8).blk t).view.emb y) = V c main_arg10 y
  refine congrArg (V c main_arg10) (funext fun a => Fin.ext ?_)
  match a with
  | ⟨0, _⟩ => show win0_8.index t (0 : Fin 1) * 64 + 1 * (y 0).val = (y 0).val; rw [i0]; omega

/-- What point `t` writes back to the score array is block `t` of the row-by-row node score. -/
theorem score_flushed (c : Dev nD) (t : Fin cfg0.N) :
    (dat0 (F := Ideal) V c).flushed 9 t = ((cfg0.win 9).blk t).view.read (Elt Ideal)
      (fun i : S50000x1.Idx => Spec.nodeScore (V c main_arg0) (V c main_arg3) (V c main_arg4) (V c main_arg5) (V c main_arg6) (i 0)) := by
  show (cfg0.win 9).cut (grid0.coords t) ((dat0 V c).after 9 t) = _
  rw [after0_9, out9_eq (iblk0 V c 0 t) (iblk0 V c 1 t) (iblk0 V c 2 t) (iblk0 V c 3 t) (iblk0 V c 4 t) (iblk0 V c 5 t) (iblk0 V c 6 t) (iblk0 V c 7 t) (iblk0 V c 8 t),
    blk1_whole V c t, blk2_whole V c t, blk3_whole V c t, blk4_whole V c t]
  obtain ⟨a0, a1, -, -, -, -, -, -, -, -, -, -, -, -, s0, s1, -, -⟩ := idx_facts t
  refine funext fun (j : S5000x1.Idx) => ?_
  obtain ⟨p, q, rfl⟩ : ∃ (p : Fin 5000) (q : Fin 1), j = ix2 p q := ⟨j 0, j 1, eq_ix2 j⟩
  obtain rfl : q = 0 := Subsingleton.elim _ _
  show k0_pay3 (iblk0 V c 0 t) (V c main_arg3) (V c main_arg4) (V c main_arg5) (V c main_arg6) (ix2 p 0)
    = Spec.nodeScore (V c main_arg0) (V c main_arg3) (V c main_arg4) (V c main_arg5) (V c main_arg6) ((((cfg0.win 9).blk t).view.emb (ix2 p 0)) 0)
  rw [score_pay_apply]
  refine Spec.nodeScore_congr_row _ _ _ _ fun k => ?_
  show V c main_arg0 (((cfg0.win 0).blk t).view.emb (ix2 p k)) = V c main_arg0 (ix2 ((((cfg0.win 9).blk t).view.emb (ix2 p 0)) 0) k)
  refine congrArg (V c main_arg0) (funext fun a => Fin.ext ?_)
  match a with
  | ⟨0, _⟩ => show win0_0.index t (0 : Fin 2) * 5000 + 1 * p.val = win0_9.index t (0 : Fin 2) * 5000 + 1 * p.val; rw [a0, s0]
  | ⟨1, _⟩ => show win0_0.index t (1 : Fin 2) * 256 + 1 * k.val = k.val; rw [a1]; omega

/-- What point `t` writes back to the feature array is block `t` of the edge features, row by row and column by column. -/
theorem feat_flushed (c : Dev nD) (t : Fin cfg0.N) :
    (dat0 (F := Ideal) V c).flushed 10 t = ((cfg0.win 10).blk t).view.read (Elt Ideal)
      (fun i : S50000x64.Idx => Spec.edgeFeat (V c main_arg0) (V c main_arg7) (V c main_arg8) (V c main_arg9) (V c main_arg10) (i 0) (i 1)) := by
  show (cfg0.win 10).cut (grid0.coords t) ((dat0 V c).after 10 t) = _
  rw [after0_10, out10_eq (iblk0 V c 0 t) (iblk0 V c 1 t) (iblk0 V c 2 t) (iblk0 V c 3 t) (iblk0 V c 4 t) (iblk0 V c 5 t) (iblk0 V c 6 t) (iblk0 V c 7 t) (iblk0 V c 8 t),
    blk5_whole V c t, blk6_whole V c t, blk7_whole V c t, blk8_whole V c t]
  obtain ⟨a0, a1, -, -, -, -, -, -, -, -, -, -, -, -, -, -, u0, u1⟩ := idx_facts t
  refine funext fun (j : S5000x64.Idx) => ?_
  obtain ⟨p, f, rfl⟩ : ∃ (p : Fin 5000) (f : Fin 64), j = ix2 p f := ⟨j 0, j 1, eq_ix2 j⟩
  show k0_pay1 (k0_pay4 (iblk0 V c 0 t) (V c main_arg7) (V c main_arg8) (V c main_arg9)) (k0_pay5 (V c main_arg10)) (ix2 p f)
    = Spec.edgeFeat (V c main_arg0) (V c main_arg7) (V c main_arg8) (V c main_arg9) (V c main_arg10)
        ((((cfg0.win 10).blk t).view.emb (ix2 p f)) 0) ((((cfg0.win 10).blk t).view.emb (ix2 p f)) 1)
  rw [feat_pay_apply]
  have hcol : (((cfg0.win 10).blk t).view.emb (ix2 p f)) 1 = f := Fin.ext (by
    show win0_10.index t (1 : Fin 2) * 64 + 1 * f.val = f.val; rw [u1]; omega)
  rw [hcol]
  refine Spec.edgeFeat_congr_row _ _ _ _ (fun k => ?_) f
  show V c main_arg0 (((cfg0.win 0).blk t).view.emb (ix2 p k)) = V c main_arg0 (ix2 ((((cfg0.win 10).blk t).view.emb (ix2 p f)) 0) k)
  refine congrArg (V c main_arg0) (funext fun a => Fin.ext ?_)
  match a with
  | ⟨0, _⟩ => show win0_0.index t (0 : Fin 2) * 5000 + 1 * p.val = win0_10.index t (0 : Fin 2) * 5000 + 1 * p.val; rw [a0, u0]
  | ⟨1, _⟩ => show win0_0.index t (1 : Fin 2) * 256 + 1 * k.val = k.val; rw [a1]; omega

/-- A row of the score array is in point `t`'s block iff each coordinate is in the block's range on its axis. -/
theorem score_mem_blk (t : Fin cfg0.N) (i : S50000x1.Idx) :
    i ∈ ((cfg0.win 9).blk t).view.set ↔ ∀ a : Fin 2, win0_9.index t a * S5000x1.size a ≤ (i a).val ∧ (i a).val < win0_9.index t a * S5000x1.size a + S5000x1.size a := by
  show i ∈ ((View.whole main_v0_0).slice (win0_9.rect t)).set ↔ _
  rw [View.set_slice_whole, Rect.mem_set_unit]
  exact Iff.rfl

theorem feat_mem_blk (t : Fin cfg0.N) (i : S50000x64.Idx) :
    i ∈ ((cfg0.win 10).blk t).view.set ↔ ∀ a : Fin 2, win0_10.index t a * S5000x64.size a ≤ (i a).val ∧ (i a).val < win0_10.index t a * S5000x64.size a + S5000x64.size a := by
  show i ∈ ((View.whole main_v0_1).slice (win0_10.rect t)).set ↔ _
  rw [View.set_slice_whole, Rect.mem_set_unit]
  exact Iff.rfl

/-- Row `r` is written by point `r / 5000`. -/
theorem score_cover (i : S50000x1.Idx) :
    ∃ t : Fin cfg0.N, (cfg0.win 9).flush t = true ∧ i ∈ ((cfg0.win 9).blk t).view.set := by
  have hi0 : (i 0).val < 50000 := idx2_lt0 i
  have hi1 : (i 1).val < 1 := idx2_lt1 i
  have hN : cfg0.N = 10 := N_0
  let t : Fin cfg0.N := ⟨(i 0).val / 5000, by rw [hN]; omega⟩
  obtain ⟨-, -, -, -, -, -, -, -, -, -, -, -, -, -, s0, s1, -, -⟩ := idx_facts t
  have ht : t.val = (i 0).val / 5000 := rfl
  refine ⟨t, flush0_9 t, ?_⟩
  rw [score_mem_blk]
  intro a
  match a with
  | ⟨0, _⟩ => show win0_9.index t (0 : Fin 2) * 5000 ≤ (i 0).val ∧ (i 0).val < win0_9.index t (0 : Fin 2) * 5000 + 5000; rw [s0, ht]; omega
  | ⟨1, _⟩ => show win0_9.index t (1 : Fin 2) * 1 ≤ (i 1).val ∧ (i 1).val < win0_9.index t (1 : Fin 2) * 1 + 1; rw [s1]; omega

theorem feat_cover (i : S50000x64.Idx) :
    ∃ t : Fin cfg0.N, (cfg0.win 10).flush t = true ∧ i ∈ ((cfg0.win 10).blk t).view.set := by
  have hi0 : (i 0).val < 50000 := idx2_lt0 i
  have hi1 : (i 1).val < 64 := idx2_lt1 i
  have hN : cfg0.N = 10 := N_0
  let t : Fin cfg0.N := ⟨(i 0).val / 5000, by rw [hN]; omega⟩
  obtain ⟨-, -, -, -, -, -, -, -, -, -, -, -, -, -, -, -, u0, u1⟩ := idx_facts t
  have ht : t.val = (i 0).val / 5000 := rfl
  refine ⟨t, flush0_10 t, ?_⟩
  rw [feat_mem_blk]
  intro a
  match a with
  | ⟨0, _⟩ => show win0_10.index t (0 : Fin 2) * 5000 ≤ (i 0).val ∧ (i 0).val < win0_10.index t (0 : Fin 2) * 5000 + 5000; rw [u0, ht]; omega
  | ⟨1, _⟩ => show win0_10.index t (1 : Fin 2) * 64 ≤ (i 1).val ∧ (i 1).val < win0_10.index t (1 : Fin 2) * 64 + 64; rw [u1]; omega

/-- After region 0 the score array (window 9) holds, at row `r`, the node score of row `r` of the inputs as the
    region found them. -/
theorem score_arr (c : Dev nD) :
    (dat0 (F := Ideal) V c).arrAt 9 cfg0.N
      = fun i : S50000x1.Idx => Spec.nodeScore (V c main_arg0) (V c main_arg3) (V c main_arg4) (V c main_arg5)
          (V c main_arg6) (i 0) :=
  (dat0 (F := Ideal) V c).arrAt_eq_of_cover 9 _ (fun t _ => score_flushed V c t) score_cover

/-- After region 0 the feature array (window 10) holds, at `(r, f)`, the edge feature of row `r`, column `f`. -/
theorem feat_arr (c : Dev nD) :
    (dat0 (F := Ideal) V c).arrAt 10 cfg0.N
      = fun i : S50000x64.Idx => Spec.edgeFeat (V c main_arg0) (V c main_arg7) (V c main_arg8) (V c main_arg9)
          (V c main_arg10) (i 0) (i 1) :=
  (dat0 (F := Ideal) V c).arrAt_eq_of_cover 10 _ (fun t _ => feat_flushed V c t) feat_cover

end Cert.KernelIdeal.Region0

end
-- ==== Proof.HostScore.lean ====
/- The first result: the node scores, read back through the host operations to region 0's score array. -/
import proofs.«404946_j60833916780728_3_alg».proof.Proof.Region0Value
import Idealize.ShloMosaic.Lib.StableHlo.Run

set_option maxRecDepth 16384

noncomputable section

namespace Cert.KernelIdeal.HostScore

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- A stretch of host operations none of which writes the score buffer leaves it as it was: the side goal is
    one inequality of references per operation of the stretch. -/
local macro "score_untouched " ops:ident : tactic =>
  `(tactic| exact StableHlo.after_of_forall_not_mem (b := Proc.devRef .tc main_v1) _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-- The score buffer is written once, in the first host stretch: every later stretch and region 1 leave it. -/
theorem W10_score (c : Dev nD) :
    W10 (F := Ideal) m ρ c (Proc.devRef .tc main_v1) = W2 (F := Ideal) m ρ c (Proc.devRef .tc main_v1) :=
  calc W10 (F := Ideal) m ρ c (Proc.devRef .tc main_v1)
    _ = W9 m ρ c (Proc.devRef .tc main_v1) := by score_untouched hostOps2
    _ = W8 m ρ c (Proc.devRef .tc main_v1) := W9_of_ne m ρ c main_v1 (by decide)
    _ = W7 m ρ c (Proc.devRef .tc main_v1) := by score_untouched hostOps1_6
    _ = W6 m ρ c (Proc.devRef .tc main_v1) := by score_untouched hostOps1_5
    _ = W5 m ρ c (Proc.devRef .tc main_v1) := by score_untouched hostOps1_4
    _ = W4 m ρ c (Proc.devRef .tc main_v1) := by score_untouched hostOps1_3
    _ = W3 m ρ c (Proc.devRef .tc main_v1) := by score_untouched hostOps1_2
    _ = W2 m ρ c (Proc.devRef .tc main_v1) := by score_untouched hostOps1_1

/-- The first host stretch writes the score buffer as region 0's score array with its unit axis dropped. -/
theorem W2_score (c : Dev nD) :
    W2 (F := Ideal) m ρ c (Proc.devRef .tc main_v1)
      = shapeCast _ (W1 (F := Ideal) m ρ c (Proc.devRef .tc main_v0_0)) shapeCasts_S50000x1_S50000 := by
  show StableHlo.after hostOps1 (W1 m ρ c) (Proc.devRef .tc main_v1) = _
  after_results
  rfl

/-- At @main's return the first result holds the node score of every row of the launch inputs. -/
theorem res0 (c : Dev nD) :
    W10 (F := Ideal) m ρ c (Proc.devRef .tc main_v1)
      = fun i : S50000.Idx => Spec.nodeScore (m ((c : Thread nD τ).loc main_arg0)) (m ((c : Thread nD τ).loc main_arg3))
          (m ((c : Thread nD τ).loc main_arg4)) (m ((c : Thread nD τ).loc main_arg5)) (m ((c : Thread nD τ).loc main_arg6)) (i 0) := by
  refine (W10_score m ρ c).trans ((W2_score m ρ c).trans ?_)
  -- region 0 leaves its score array (window 9) at the node scores of the launch inputs
  have hscore : W1 (F := Ideal) m ρ c (Proc.devRef .tc main_v0_0)
      = fun j : S50000x1.Idx => Spec.nodeScore (m ((c : Thread nD τ).loc main_arg0)) (m ((c : Thread nD τ).loc main_arg3))
          (m ((c : Thread nD τ).loc main_arg4)) (m ((c : Thread nD τ).loc main_arg5)) (m ((c : Thread nD τ).loc main_arg6)) (j 0) :=
    (W1_arr m ρ c (9 : Fin cfg0.W)).trans (Region0.score_arr (V0 m ρ) c)
  rw [hscore]
  funext i
  -- entry `i` of the flattened [50000, 1] array is its entry at row `i`, column 0
  refine (shapeCast_apply _ shapeCasts_S50000x1_S50000 i (ix2 (i 0) (0 : Fin 1)) ?_).trans ?_
  · rw [Shape.rowMajor_val_two, Shape.rowMajor_val_one]
    show (i 0).val * 1 + 0 = (i 0).val
    omega
  · rfl

end Cert.KernelIdeal.HostScore

end
-- ==== Proof.Region1Value.lean ====
/- Region 1 (the per-edge dot product and logistic function over 98 blocks of 16384 edges): the output array after the region. -/
import proofs.«404946_j60833916780728_3_alg».proof.Proof.Gen.KernelIdeal.Frame
import proofs.«404946_j60833916780728_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Idealize.ShloMosaic Idealize.ShloMosaic.TcCoe Idealize.ShloMosaic.ValueIdx Idealize.SL.Sem
open Cert.KernelIdeal Cert.KernelIdeal.Gen
open scoped BigOperators

/-! ## One block: the body's arithmetic at an edge of the block -/

/-- The sum over the 64 lanes of a block of 16384 rows, read at row `p`: the sum over `k` of the entries `(p, k)`. -/
theorem laneSum_apply (src : FVec Ideal S16384x64 .f32) (h : S16384x64.Reduces [1] S16384) (hφ : FKind.Formats .f32)
    (hacc : (0x00000000#32 : BitVec 32) = 0x00000000#32) (p : Fin 16384) :
    multiReduction (F := Ideal) .add [1] S16384 src 0x00000000#32 h hφ hacc (ix1 p) = ∑ k : Fin 64, src (ix2 p k) := by
  refine (Ideal.multiReduction_add_single src 0x00000000#32 h hφ hacc (ix1 p)).trans ?_
  refine Finset.sum_congr rfl fun k _ => congrArg src ?_
  funext a
  match a with
  | ⟨0, _⟩ => rfl
  | ⟨1, _⟩ => rfl

/-- The body's result at row `p` of its block: the logistic function of the dot product of row `p` of the two
    input blocks (the two shape casts are between equal shapes; the product is taken entry by entry, then summed
    over the lanes). -/
theorem pay_apply (a b : Vec Ideal S16384x64 .f32) (p : Fin 16384) :
    k1_pay1 (F := Ideal) a b (ix1 p) = Spec.edgeDot a b p := by
  unfold k1_pay1
  rw [shapeCast_self a, shapeCast_self b]
  unfold Spec.edgeDot
  unfold logistic
  show Ideal.logistic _ = Ideal.logistic _
  refine congrArg Ideal.logistic ?_
  refine (laneSum_apply (mulf a b) _ _ _ p).trans ?_
  rfl

variable (V : (c : Dev nD) → (b : Ref sig .tc) → Buf (Elt Ideal) ((c : Thread nD τ).loc b))

/-! ## The blocks: block `t` of each window is rows `16384·t … 16384·t + 16383` of its array -/

/-- The blocks' index maps over the 98 points of the grid: at point `t` both row tables and the output are at
    block `t` along the edges, and the row tables at block 0 along the 64 lanes. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 1) = t.val :=
  (by decide +kernel : ∀ t : Fin grid1.N, _)

/-- Row `p` of the first table's block at point `t` is row `16384·t + p` of the table. -/
theorem blk0_apply (c : Dev nD) (t : Fin cfg1.N) (p : Fin 16384) (k : Fin 64) (e : Fin 1605632)
    (he : e.val = 16384 * t.val + p.val) :
    (iblk1 V c 0 t : Vec Ideal S16384x64 .f32) (ix2 p k) = (V c main_v8 : S1605632x64.Idx → EReal) (ix2 e k) := by
  obtain ⟨h0, h1, -, -, -⟩ := idx_facts t
  unfold iblk1
  rw [View.read_apply]
  show V c main_v8 _ = V c main_v8 _
  congr 1
  funext a
  apply Fin.ext
  match a with
  | ⟨0, _⟩ => show win1_0.index t (0 : Fin 2) * 16384 + 1 * p.val = e.val; rw [h0, he]; omega
  | ⟨1, _⟩ => show win1_0.index t (1 : Fin 2) * 64 + 1 * k.val = k.val; rw [h1]; omega

/-- Row `p` of the second table's block at point `t` is row `16384·t + p` of the table. -/
theorem blk1_apply (c : Dev nD) (t : Fin cfg1.N) (p : Fin 16384) (k : Fin 64) (e : Fin 1605632)
    (he : e.val = 16384 * t.val + p.val) :
    (iblk1 V c 1 t : Vec Ideal S16384x64 .f32) (ix2 p k) = (V c main_v9 : S1605632x64.Idx → EReal) (ix2 e k) := by
  obtain ⟨-, -, h0, h1, -⟩ := idx_facts t
  unfold iblk1
  rw [View.read_apply]
  show V c main_v9 _ = V c main_v9 _
  congr 1
  funext a
  apply Fin.ext
  match a with
  | ⟨0, _⟩ => show win1_1.index t (0 : Fin 2) * 16384 + 1 * p.val = e.val; rw [h0, he]; omega
  | ⟨1, _⟩ => show win1_1.index t (1 : Fin 2) * 64 + 1 * k.val = k.val; rw [h1]; omega

/-- The body's result at row `p` of blocks whose rows `p` are rows `e` of two tables: the score of row `e`
    of the tables (a score depends on its own row only). -/
theorem blk_pay (x0 x1 : Vec Ideal S16384x64 .f32) (A B : Spec.Mat 1605632 64) (p : Fin 16384) (e : Fin 1605632)
    (h0 : ∀ k : Fin 64, x0 (ix2 p k) = A (ix2 e k)) (h1 : ∀ k : Fin 64, x1 (ix2 p k) = B (ix2 e k)) :
    k1_pay1 (F := Ideal) x0 x1 (ix1 p) = Spec.edgeDot A B e :=
  (pay_apply x0 x1 p).trans (Spec.edgeDot_congr_row h0 h1)

theorem hz1 : (![0] : Fin 1 → Nat) = fun _ => 0 := funext fun a => by fin_cases a; rfl
theorem hz2 : (![0, 0] : Fin 2 → Nat) = fun _ => 0 := funext fun a => by fin_cases a <;> rfl

/-- What point `t` writes back is block `t` of the array of scores of the two row tables as the region found
    them: the one store covers the whole staging buffer, its loads read the whole input blocks, and row `p` of
    the three blocks at point `t` is row `16384·t + p` of the three arrays. -/
theorem flushed_eq (c : Dev nD) (t : Fin cfg1.N) :
    (dat1 (F := Ideal) V c).flushed 2 t
      = ((cfg1.win 2).blk t).view.read (Elt Ideal)
          (fun i : S1605632.Idx => Spec.edgeDot (V c main_v8) (V c main_v9) (i 0)) := by
  show (cfg1.win 2).cut (grid1.coords t) ((dat1 V c).after 2 t) = _
  rw [after1_2]
  unfold out1_2
  rw [View.canon_unit_zero hz1]
  simp only [View.ld_unit_zero (S := S16384x64) hz2]
  obtain ⟨-, -, -, -, h2⟩ := idx_facts t
  funext j
  rw [View.read_apply]
  have hp : (j 0).val < 16384 := (j 0).isLt
  have hx : (cfg1.win 2).xinj (grid1.coords t) j = ix1 (⟨(j 0).val, hp⟩ : Fin 16384) := by
    funext a
    match a with
    | ⟨0, _⟩ => rfl
  show k1_pay1 (F := Ideal) (iblk1 V c 0 t) (iblk1 V c 1 t) ((cfg1.win 2).xinj (grid1.coords t) j) = _
  rw [hx]
  have he : ((((cfg1.win 2).blk t).view.emb j) 0).val = 16384 * t.val + (j 0).val := by
    show win1_2.index t (0 : Fin 1) * 16384 + 1 * (j 0).val = _
    rw [h2]; omega
  exact blk_pay (iblk1 V c 0 t) (iblk1 V c 1 t) (V c main_v8) (V c main_v9) ⟨(j 0).val, hp⟩ _
    (fun k => blk0_apply V c t ⟨(j 0).val, hp⟩ k _ he) (fun k => blk1_apply V c t ⟨(j 0).val, hp⟩ k _ he)

/-! ## The cover: edge `e` lies in the block of point `e / 16384`, and 98 · 16384 = 1605632 -/

/-- An edge is in point `t`'s block iff it is in the block's range of 16384 edges. -/
theorem mem_blk (t : Fin cfg1.N) (i : S1605632.Idx) :
    i ∈ ((cfg1.win 2).blk t).view.set ↔ ∀ a : Fin 1, win1_2.index t a * S16384.size a ≤ (i a).val
      ∧ (i a).val < win1_2.index t a * S16384.size a + S16384.size a := by
  show i ∈ ((View.whole main_v10).slice (win1_2.rect t)).set ↔ _
  rw [View.set_slice_whole, Rect.mem_set_unit]
  exact Iff.rfl

/-- Every edge is in some point's block, and every point writes its block back. -/
theorem cover (i : S1605632.Idx) :
    ∃ t : Fin cfg1.N, (cfg1.win 2).flush t = true ∧ i ∈ ((cfg1.win 2).blk t).view.set := by
  have hi : (i 0).val < 1605632 := (i 0).isLt
  have hN : cfg1.N = 98 := N_1
  have ht : (i 0).val / 16384 < cfg1.N := by rw [hN]; omega
  obtain ⟨-, -, -, -, h2⟩ := idx_facts ⟨(i 0).val / 16384, ht⟩
  refine ⟨⟨(i 0).val / 16384, ht⟩, flush1_2 _, ?_⟩
  rw [mem_blk]
  intro a
  match a with
  | ⟨0, _⟩ =>
    show win1_2.index ⟨(i 0).val / 16384, ht⟩ (0 : Fin 1) * 16384 ≤ (i 0).val
      ∧ (i 0).val < win1_2.index ⟨(i 0).val / 16384, ht⟩ (0 : Fin 1) * 16384 + 16384
    rw [h2]
    show (i 0).val / 16384 * 16384 ≤ (i 0).val ∧ (i 0).val < (i 0).val / 16384 * 16384 + 16384
    omega

/-! ## The array -/

/-- After region 1 the output array (window 2) holds, at `e`, the logistic function of the dot product of row `e`
    of the two padded row tables as the region found them. -/
theorem dot_arr (c : Dev nD) :
    (dat1 (F := Ideal) V c).arrAt 2 cfg1.N
      = fun i : S1605632.Idx => Spec.edgeDot (V c main_v8) (V c main_v9) (i 0) :=
  (dat1 (F := Ideal) V c).arrAt_eq_of_cover 2
    (fun i : S1605632.Idx => Spec.edgeDot (V c main_v8) (V c main_v9) (i 0))
    (fun t _ => flushed_eq V c t) cover

end Cert.KernelIdeal.Region1

end
-- ==== Proof.TakeTerm.lean ====
/- The host operations between the two regions, as explicit terms: the id row an edge table is gathered by, the
   row gather that fills out-of-range rows with a not-a-number pattern, and the zero padding to a whole number of
   16384-edge blocks. -/
import proofs.«404946_j60833916780728_3_alg».proof.KernelIdeal
import proofs.«404946_j60833916780728_3_alg».proof.Proof.Gen.KernelIdeal
import Idealize.ShloMosaic.PureOps.Ideal

noncomputable section

namespace Cert.KernelIdeal.Take

open Idealize.ShloMosaic Cert.KernelIdeal Cert.KernelIdeal.Gen

/-- Row 0 of the ids, as a vector of 1600000 words. -/
def idsRow0 (ids : IVec S2x1600000 32) : IVec S1600000 32 :=
  shapeCast S1600000 (extractStridedSlice S1x1600000 ![0, 0] ids slices_S2x1600000_S1x1600000_0_0) shapeCasts_S1x1600000_S1600000

/-- Row 1 of the ids. -/
def idsRow1 (ids : IVec S2x1600000 32) : IVec S1600000 32 :=
  shapeCast S1600000 (extractStridedSlice S1x1600000 ![1, 0] ids slices_S2x1600000_S1x1600000_1_0) shapeCasts_S1x1600000_S1600000

/-- The ids with a negative one counted from the end of the 50000-row table, laid out as a column. -/
def idxCol (v : IVec S1600000 32) : IVec S1600000x1 32 :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 50000#32))) v)

/-- Per edge: the wrapped id lies in `[0, 49999]`. -/
def inBounds (v : IVec S1600000 32) : IVec S1600000 1 :=
  Host.reduce IntOp.andi
    (andi (cmpi .sge (idxCol v) (broadcastInDim S1600000x1 ![] bcast_S_S1600000x1 (constantI S_ 32 0#32)))
      (cmpi .sle (idxCol v) (broadcastInDim S1600000x1 ![0, 1] bcast_S1x1_S1600000x1_0_1
        (broadcastInDim S1x1 ![1] bcast_S1_S1x1_1 (constantI S1 32 49999#32)))))
    (constantI S_ 1 1#1) reducesTo_S1600000x1_S1600000_d1 h_S_

/-- The rows of `feat` the ids name; a row whose wrapped id is out of bounds is filled with the not-a-number
    pattern. -/
def take (feat : FVec Ideal S50000x64 .f32) (v : IVec S1600000 32) : FVec Ideal S1600000x64 .f32 :=
  select (broadcastInDim S1600000x64 ![0] bcast_S1600000_S1600000x64_0 (inBounds v))
    (Host.gather gather_S50000x64_S1600000x1_S1600000x64_1_0_n_n_0_1_164 feat (idxCol v))
    (broadcastInDim S1600000x64 ![] bcast_S_S1600000x64 (constant (F := Ideal) S_ .f32 0x7FC00000#32))

/-- 5632 rows of the value `z` appended below the 1600000 rows. -/
def padRows (x : FVec Ideal S1600000x64 .f32) (z : FVec Ideal S_ .f32) : FVec Ideal S1605632x64 .f32 :=
  pad S1605632x64 ![0, 0] ![5632, 0] ![0, 0] x z pads_S1600000x64_S1605632x64_056320_000 h_S_

/-- The first 1600000 entries. -/
def firstEdges (y : FVec Ideal S1605632 .f32) : FVec Ideal S1600000 .f32 :=
  extractStridedSlice S1600000 ![0] y slices_S1605632_S1600000_0

end Cert.KernelIdeal.Take

end
-- ==== Proof.TakeIndex.lean ====
/- The host operations between the two regions, read at an index: a row of the padded, gathered table is the row of
   the feature table its id names, provided the id is in range (so that the gather's fill never happens). -/
import proofs.«404946_j60833916780728_3_alg».proof.Proof.TakeTerm
import proofs.«404946_j60833916780728_3_alg».proof.Proof.Spec
import proofs.«404946_j60833916780728_3_alg».proof.Proof.LibGatherScatter
import Idealize.ShloMosaic.Lib.ValueIdx
import Idealize.ShloMosaic.Lib.ValueLayout
import Idealize.ShloMosaic.Lib.Pipeline.Value
import Idealize.ShloMosaic.Lib.ReduceAll
import Idealize.ShloMosaic.Lib.KernelVsHost

set_option maxRecDepth 16384

noncomputable section

namespace Cert.KernelIdeal.Take

open Idealize.ShloMosaic Idealize.ShloMosaic.ValueIdx Cert.KernelIdeal Cert.KernelIdeal.Gen Cert.LibGatherScatter

/-- Entry `e` of row 0 of the ids. -/
theorem idsRow0_apply (ids : IVec S2x1600000 32) (e : Fin 1600000) : idsRow0 ids (ix1 e) = ids (ix2 0 e) := by
  unfold idsRow0
  refine (shapeCast_apply _ shapeCasts_S1x1600000_S1600000 (ix1 e) (ix2 (0 : Fin 1) e) ?_).trans ?_
  · rewrite [Shape.rowMajor_val_two, Shape.rowMajor_val_one]
    show 0 * 1600000 + e.val = e.val
    omega
  · exact extractStridedSlice_apply ![0, 0] ids slices_S2x1600000_S1x1600000_0_0 (ix2 (0 : Fin 1) e) (ix2 (0 : Fin 2) e)
      (fun a => match a with
        | ⟨0, _⟩ => by show 0 = 0 + 0; rfl
        | ⟨1, _⟩ => by show e.val = 0 + e.val; omega)

/-- Entry `e` of row 1 of the ids. -/
theorem idsRow1_apply (ids : IVec S2x1600000 32) (e : Fin 1600000) : idsRow1 ids (ix1 e) = ids (ix2 1 e) := by
  unfold idsRow1
  refine (shapeCast_apply _ shapeCasts_S1x1600000_S1600000 (ix1 e) (ix2 (0 : Fin 1) e) ?_).trans ?_
  · rewrite [Shape.rowMajor_val_two, Shape.rowMajor_val_one]
    show 0 * 1600000 + e.val = e.val
    omega
  · exact extractStridedSlice_apply ![1, 0] ids slices_S2x1600000_S1x1600000_1_0 (ix2 (0 : Fin 1) e) (ix2 (1 : Fin 2) e)
      (fun a => match a with
        | ⟨0, _⟩ => by show 1 = 1 + 0; rfl
        | ⟨1, _⟩ => by show e.val = 0 + e.val; omega)

/-- The column of wrapped ids at edge `e`: the id, counted from the end of the table when negative. -/
theorem idxCol_apply (v : IVec S1600000 32) (e : Fin 1600000) :
    idxCol v (ix2 e (0 : Fin 1)) = wrapW 50000#32 (v (ix1 e)) := by
  unfold idxCol
  rw [bcast_col_apply, wrap_apply]

/-- A left fold by `and` over one-bit words that starts at 1 and meets only 1s is 1. -/
theorem foldl_andi_of_all_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_of_all_one f l fun n hn => h n (List.mem_cons_of_mem _ hn)

/-- For an id in `[-50000, 50000)` the bounds test of the wrapped id passes. -/
theorem inBounds_apply (v : IVec S1600000 32) (e : Fin 1600000)
    (h0 : -50000 ≤ (v (ix1 e)).toInt) (h1 : (v (ix1 e)).toInt < 50000) : inBounds v (ix1 e) = 1#1 := by
  have hw := Spec.wrapW_inRange h0 h1
  unfold inBounds
  rw [Host.reduce_eq_foldl]
  refine foldl_andi_of_all_one _ _ fun i hi => ?_
  -- the one index of the column that reduces to `e` is `(e, 0)`
  have hd : reducesTo_S1600000x1_S1600000_d1.drop i = ix1 e := by simpa using (List.mem_filter.1 hi).2
  have hv0 : (i 0).val = e.val := by
    have h := congrArg (fun j : S1600000.Idx => (j 0).val) hd
    exact (Shape.ReducesTo.drop_apply_val_of_eq reducesTo_S1600000x1_S1600000_d1 i 0 0).symm.trans h
  obtain rfl : i = ix2 e (0 : Fin 1) := funext fun a => Fin.ext (by
    match a with
    | ⟨0, _⟩ => exact hv0
    | ⟨1, _⟩ => have := idx2_lt1 i; show (i 1).val = 0; omega)
  show IntOp.andi (IntOp.cmpi .sge (idxCol v (ix2 e (0 : Fin 1))) 0#32)
    (IntOp.cmpi .sle (idxCol v (ix2 e (0 : Fin 1))) 49999#32) = 1#1
  rw [idxCol_apply]
  refine IntOp.andi_eq_one.2 ⟨IntOp.cmpi_sge.2 ?_, IntOp.cmpi_sle.2 ?_⟩
  · rw [show (0#32 : BitVec 32).toInt = 0 from by decide]
    exact hw.1
  · rw [show (49999#32 : BitVec 32).toInt = 49999 from by decide]
    omega

/-- For an id in `[-50000, 50000)` the gather reads the row the wrapped id names: the fill never happens. -/
theorem take_apply (feat : FVec Ideal S50000x64 .f32) (v : IVec S1600000 32) (e : Fin 1600000) (k : Fin 64)
    (h0 : -50000 ≤ (v (ix1 e)).toInt) (h1 : (v (ix1 e)).toInt < 50000) :
    take feat v (ix2 e k) = feat (ix2 (clampIdx 50000 (by decide) (wrapW 50000#32 (v (ix1 e)))) k) := by
  unfold take
  rw [select_apply,
    broadcastInDim_apply _ bcast_S1600000_S1600000x64_0 (inBounds v) (ix2 e k) (ix1 e) (fun a => match a with
      | ⟨0, _⟩ => by show e.val = if (1600000 : Nat) = 1 then 0 else e.val; rw [if_neg (by decide)]),
    inBounds_apply v e h0 h1, select_one,
    gather2_apply (by decide) gather_S50000x64_S1600000x1_S1600000x64_1_0_n_n_0_1_164 rfl rfl rfl rfl rfl,
    idxCol_apply]

/-- Above the appended rows the padded table is the table. -/
theorem padRows_apply (x : FVec Ideal S1600000x64 .f32) (z : FVec Ideal S_ .f32) (e : Fin 1600000) (e' : Fin 1605632)
    (he : e'.val = e.val) (k : Fin 64) : padRows x z (ix2 e' k) = x (ix2 e k) := by
  unfold padRows
  exact pad_apply_of_inside ![0, 0] ![5632, 0] ![0, 0] x z pads_S1600000x64_S1605632x64_056320_000 h_S_
    (ix2 e' k) (ix2 e k) (fun a => match a with
      | ⟨0, _⟩ => by show e'.val = 0 + e.val * (0 + 1); omega
      | ⟨1, _⟩ => by show k.val = 0 + k.val * (0 + 1); omega)

/-- Entry `e` of the first 1600000 entries. -/
theorem firstEdges_apply (y : FVec Ideal S1605632 .f32) (e : Fin 1600000) (e' : Fin 1605632) (he : e'.val = e.val) :
    firstEdges y (ix1 e) = y (ix1 e') := by
  unfold firstEdges
  exact extractStridedSlice_apply ![0] y slices_S1605632_S1600000_0 (ix1 e) (ix1 e') (fun a => match a with
    | ⟨0, _⟩ => by show e'.val = 0 + e.val; omega)

/-- Row `e` of the padded table gathered by row 0 of in-range ids is the feature row of edge `e`'s first node. -/
theorem padTake0_apply (feat : FVec Ideal S50000x64 .f32) (ids : IVec S2x1600000 32) (z : FVec Ideal S_ .f32)
    (hr : Spec.InRange ids) (e : Fin 1600000) (e' : Fin 1605632) (he : e'.val = e.val) (k : Fin 64) :
    padRows (take feat (idsRow0 ids)) z (ix2 e' k) = feat (ix2 (Spec.rowOf ids 0 e) k) := by
  rw [padRows_apply _ z e e' he k,
    take_apply feat (idsRow0 ids) e k (by rw [idsRow0_apply]; exact (hr 0 e).1) (by rw [idsRow0_apply]; exact (hr 0 e).2),
    idsRow0_apply]
  rfl

/-- Row `e` of the padded table gathered by row 1 of in-range ids is the feature row of edge `e`'s second node. -/
theorem padTake1_apply (feat : FVec Ideal S50000x64 .f32) (ids : IVec S2x1600000 32) (z : FVec Ideal S_ .f32)
    (hr : Spec.InRange ids) (e : Fin 1600000) (e' : Fin 1605632) (he : e'.val = e.val) (k : Fin 64) :
    padRows (take feat (idsRow1 ids)) z (ix2 e' k) = feat (ix2 (Spec.rowOf ids 1 e) k) := by
  rw [padRows_apply _ z e e' he k,
    take_apply feat (idsRow1 ids) e k (by rw [idsRow1_apply]; exact (hr 1 e).1) (by rw [idsRow1_apply]; exact (hr 1 e).2),
    idsRow1_apply]
  rfl

end Cert.KernelIdeal.Take

end
-- ==== Proof.HostEdge.lean ====
/- The second result: the edge scores, read back through the final slice, region 1, the two paddings and the two
   fill-mode row gathers to region 0's feature array and the ids.

   Each stretch of host operations is first read over ANY contents it may start from: what it leaves in the buffer
   it writes, as one explicit term of what it found in the buffers it reads. The buffer contents at @main's segment
   boundaries are then chained: a buffer no later stretch writes keeps its contents. At an edge below 1600000 the
   padded, gathered tables hold the feature rows of the edge's two nodes (every id being in range), region 1 turns
   rows into scores, and the final slice keeps the first 1600000 of them. -/
import proofs.«404946_j60833916780728_3_alg».proof.Proof.Region0Value
import proofs.«404946_j60833916780728_3_alg».proof.Proof.Region1Value
import proofs.«404946_j60833916780728_3_alg».proof.Proof.TakeIndex
import Idealize.ShloMosaic.Lib.StableHlo.Run

set_option maxRecDepth 16384

noncomputable section

namespace Cert.KernelIdeal.HostEdge

open Idealize.ShloMosaic Idealize.ShloMosaic.TcCoe Idealize.ShloMosaic.ValueIdx Idealize.SL.Sem
open Idealize.ShloMosaic.StableHlo
open Cert.KernelIdeal Cert.KernelIdeal.Gen

/-! ## A typed reference's transports -/

/-- Reading back what was stored through a typed reference gives the value stored. -/
theorem ofBuf_toBuf {Val : EltTy → Type} {T : BufTy} (x : TRef sig T) (v : T.Contents Val) : x.ofBuf (x.toBuf v) = v := by
  obtain ⟨r, h, a, b⟩ := x
  subst h
  rfl

/-- The buffers the two gathers read and write, as typed references. -/
abbrev tFeat : TRef sig ⟨S50000x64, .f32⟩ := .of main_v0_1
abbrev tIds0 : TRef sig ⟨S1600000, .i32⟩ := .of main_v3
abbrev tIds1 : TRef sig ⟨S1600000, .i32⟩ := .of main_v5
abbrev tRows0 : TRef sig ⟨S1600000x64, .f32⟩ := .of main_v6
abbrev tRows1 : TRef sig ⟨S1600000x64, .f32⟩ := .of main_v7

/-- At these references the transports are the identity. -/
theorem feat_ofBuf (v : (main_v0_1 : Ref sig .tc).ty.Contents (Elt Ideal)) : tFeat.ofBuf v = v := rfl
theorem ids0_ofBuf (v : (main_v3 : Ref sig .tc).ty.Contents (Elt Ideal)) : tIds0.ofBuf v = v := rfl
theorem ids1_ofBuf (v : (main_v5 : Ref sig .tc).ty.Contents (Elt Ideal)) : tIds1.ofBuf v = v := rfl
theorem rows0_toBuf (v : (⟨S1600000x64, .f32⟩ : BufTy).Contents (Elt Ideal)) : tRows0.toBuf v = v := rfl
theorem rows1_toBuf (v : (⟨S1600000x64, .f32⟩ : BufTy).Contents (Elt Ideal)) : tRows1.toBuf v = v := rfl

/-! ## Each stretch, over any contents it starts from -/

/-- The first stretch leaves row 0 of the ids in its first id buffer. -/
theorem ids0_of (W : Valuation τ sig (Elt Ideal)) :
    StableHlo.after (hostOps1 (F := Ideal)) W (Proc.devRef .tc main_v3) = Take.idsRow0 (W (Proc.devRef .tc main_arg2)) := by
  after_results
  rfl

/-- … and row 1 in its second. -/
theorem ids1_of (W : Valuation τ sig (Elt Ideal)) :
    StableHlo.after (hostOps1 (F := Ideal)) W (Proc.devRef .tc main_v5) = Take.idsRow1 (W (Proc.devRef .tc main_arg2)) := by
  after_results
  rfl

/-- The first gather's 23 operations leave the rows of the feature table named by the first id buffer. -/
theorem take0_of (W : Valuation τ sig (Elt Ideal)) :
    StableHlo.after (hostOps1_1 (F := Ideal)) W (Proc.devRef .tc main_v6)
      = tRows0.toBuf (Take.take (tFeat.ofBuf (W (Proc.devRef .tc main_v0_1))) (tIds0.ofBuf (W (Proc.devRef .tc main_v3)))) := by
  unfold Take.take Take.inBounds Take.idxCol
  after_results_simp
  simp only [ofBuf_toBuf]

/-- The second gather's leave the rows named by the second id buffer. -/
theorem take1_of (W : Valuation τ sig (Elt Ideal)) :
    StableHlo.after (hostOps1_2 (F := Ideal)) W (Proc.devRef .tc main_v7)
      = tRows1.toBuf (Take.take (tFeat.ofBuf (W (Proc.devRef .tc main_v0_1))) (tIds1.ofBuf (W (Proc.devRef .tc main_v5)))) := by
  unfold Take.take Take.inBounds Take.idxCol
  after_results_simp
  simp only [ofBuf_toBuf]

/-- The first padding appends rows of the converted scalar to the first gathered table. -/
theorem pad0_of (W : Valuation τ sig (Elt Ideal)) :
    StableHlo.after (hostOps1_4 (F := Ideal)) W (Proc.devRef .tc main_v8)
      = Take.padRows (W (Proc.devRef .tc main_v6)) (sitofp .f32 (W (Proc.devRef .tc main_c))) := by
  after_results
  rfl

/-- The second padding, to the second gathered table. -/
theorem pad1_of (W : Valuation τ sig (Elt Ideal)) :
    StableHlo.after (hostOps1_6 (F := Ideal)) W (Proc.devRef .tc main_v9)
      = Take.padRows (W (Proc.devRef .tc main_v7)) (sitofp .f32 (W (Proc.devRef .tc main_c_0))) := by
  after_results
  rfl

/-- The last stretch keeps the first 1600000 entries of region 1's output. -/
theorem first_of (W : Valuation τ sig (Elt Ideal)) :
    StableHlo.after (hostOps2 (F := Ideal)) W (Proc.devRef .tc main_v11) = Take.firstEdges (W (Proc.devRef .tc main_v10)) := by
  after_results
  rfl

/-! ## The contents at the segment boundaries -/

variable (m : (ℓ : Loc nD τ sig) → Buf (Elt Ideal) ℓ) (ρ : Dev nD → PrngReg)

/-- Each boundary's contents is the previous one's after the stretch between them. -/
theorem W2_def (c : Dev nD) : W2 (F := Ideal) m ρ c = StableHlo.after hostOps1 (W1 m ρ c) := rfl
theorem W3_def (c : Dev nD) : W3 (F := Ideal) m ρ c = StableHlo.after hostOps1_1 (W2 m ρ c) := rfl
theorem W4_def (c : Dev nD) : W4 (F := Ideal) m ρ c = StableHlo.after hostOps1_2 (W3 m ρ c) := rfl
theorem W6_def (c : Dev nD) : W6 (F := Ideal) m ρ c = StableHlo.after hostOps1_4 (W5 m ρ c) := rfl
theorem W8_def (c : Dev nD) : W8 (F := Ideal) m ρ c = StableHlo.after hostOps1_6 (W7 m ρ c) := rfl
theorem W10_def (c : Dev nD) : W10 (F := Ideal) m ρ c = StableHlo.after hostOps2 (W9 m ρ c) := rfl

/-- A stretch none of whose operations writes buffer `b` leaves it as it was: one inequality of references per
    operation of the stretch. -/
local macro "untouched " b:ident ops:ident : tactic =>
  `(tactic| exact StableHlo.after_of_forall_not_mem (b := Proc.devRef .tc $b) _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-- Region 0 leaves its feature array (window 10) at the edge features of the launch inputs. -/
theorem feat_W1 (c : Dev nD) :
    W1 (F := Ideal) m ρ c (Proc.devRef .tc main_v0_1)
      = fun j : S50000x64.Idx => Spec.edgeFeat (m ((c : Thread nD τ).loc main_arg0)) (m ((c : Thread nD τ).loc main_arg7)) (m ((c : Thread nD τ).loc main_arg8)) (m ((c : Thread nD τ).loc main_arg9)) (m ((c : Thread nD τ).loc main_arg10)) (j 0) (j 1) :=
  (W1_arr m ρ c (10 : Fin cfg0.W)).trans (Region0.feat_arr (V0 m ρ) c)

/-- Region 0 does not touch the ids. -/
theorem ids_W1 (c : Dev nD) : W1 (F := Ideal) m ρ c (Proc.devRef .tc main_arg2) = (m ((c : Thread nD τ).loc main_arg2)) :=
  (W1_of_ne m ρ c main_arg2 (by decide)).trans rfl

/-- The first gathered table, from its gather up to the first padding. -/
theorem rows0_W5 (c : Dev nD) :
    W5 (F := Ideal) m ρ c (Proc.devRef .tc main_v6)
      = Take.take (W1 m ρ c (Proc.devRef .tc main_v0_1)) (Take.idsRow0 (W1 m ρ c (Proc.devRef .tc main_arg2))) := by
  have h4 : W5 (F := Ideal) m ρ c (Proc.devRef .tc main_v6) = W4 m ρ c (Proc.devRef .tc main_v6) := by untouched main_v6 hostOps1_3
  have h3 : W4 (F := Ideal) m ρ c (Proc.devRef .tc main_v6) = W3 m ρ c (Proc.devRef .tc main_v6) := by untouched main_v6 hostOps1_2
  have hf : W2 (F := Ideal) m ρ c (Proc.devRef .tc main_v0_1) = W1 m ρ c (Proc.devRef .tc main_v0_1) := by untouched main_v0_1 hostOps1
  rw [h4, h3, W3_def, take0_of, rows0_toBuf, feat_ofBuf, ids0_ofBuf, hf, W2_def, ids0_of]

/-- The second gathered table, from its gather up to the second padding. -/
theorem rows1_W7 (c : Dev nD) :
    W7 (F := Ideal) m ρ c (Proc.devRef .tc main_v7)
      = Take.take (W1 m ρ c (Proc.devRef .tc main_v0_1)) (Take.idsRow1 (W1 m ρ c (Proc.devRef .tc main_arg2))) := by
  have h6 : W7 (F := Ideal) m ρ c (Proc.devRef .tc main_v7) = W6 m ρ c (Proc.devRef .tc main_v7) := by untouched main_v7 hostOps1_5
  have h5 : W6 (F := Ideal) m ρ c (Proc.devRef .tc main_v7) = W5 m ρ c (Proc.devRef .tc main_v7) := by untouched main_v7 hostOps1_4
  have h4 : W5 (F := Ideal) m ρ c (Proc.devRef .tc main_v7) = W4 m ρ c (Proc.devRef .tc main_v7) := by untouched main_v7 hostOps1_3
  have hf3 : W3 (F := Ideal) m ρ c (Proc.devRef .tc main_v0_1) = W2 m ρ c (Proc.devRef .tc main_v0_1) := by untouched main_v0_1 hostOps1_1
  have hf2 : W2 (F := Ideal) m ρ c (Proc.devRef .tc main_v0_1) = W1 m ρ c (Proc.devRef .tc main_v0_1) := by untouched main_v0_1 hostOps1
  have hi3 : W3 (F := Ideal) m ρ c (Proc.devRef .tc main_v5) = W2 m ρ c (Proc.devRef .tc main_v5) := by untouched main_v5 hostOps1_1
  rw [h6, h5, h4, W4_def, take1_of, rows1_toBuf, feat_ofBuf, ids1_ofBuf, hf3, hf2, hi3, W2_def, ids1_of]

/-- The first padded table at region 1's entry. -/
theorem padded0_W8 (c : Dev nD) :
    W8 (F := Ideal) m ρ c (Proc.devRef .tc main_v8)
      = Take.padRows (Take.take (W1 m ρ c (Proc.devRef .tc main_v0_1)) (Take.idsRow0 (W1 m ρ c (Proc.devRef .tc main_arg2))))
          (sitofp .f32 (W5 m ρ c (Proc.devRef .tc main_c))) := by
  have h7 : W8 (F := Ideal) m ρ c (Proc.devRef .tc main_v8) = W7 m ρ c (Proc.devRef .tc main_v8) := by untouched main_v8 hostOps1_6
  have h6 : W7 (F := Ideal) m ρ c (Proc.devRef .tc main_v8) = W6 m ρ c (Proc.devRef .tc main_v8) := by untouched main_v8 hostOps1_5
  rw [h7, h6, W6_def, pad0_of, rows0_W5]

/-- The second padded table at region 1's entry. -/
theorem padded1_W8 (c : Dev nD) :
    W8 (F := Ideal) m ρ c (Proc.devRef .tc main_v9)
      = Take.padRows (Take.take (W1 m ρ c (Proc.devRef .tc main_v0_1)) (Take.idsRow1 (W1 m ρ c (Proc.devRef .tc main_arg2))))
          (sitofp .f32 (W7 m ρ c (Proc.devRef .tc main_c_0))) := by
  rw [W8_def, pad1_of, rows1_W7]

/-- Region 1 leaves its output array (window 2) at the row scores of the two padded tables. -/
theorem scores_W9 (c : Dev nD) :
    W9 (F := Ideal) m ρ c (Proc.devRef .tc main_v10)
      = fun i : S1605632.Idx => Spec.edgeDot (W8 (F := Ideal) m ρ c (Proc.devRef .tc main_v8))
          (W8 (F := Ideal) m ρ c (Proc.devRef .tc main_v9)) (i 0) :=
  (W9_arr m ρ c (2 : Fin cfg1.W)).trans (Region1.dot_arr (V8 m ρ) c)

/-- At @main's return, if every id is in range, the second result holds the score of every edge over the feature
    table of the launch inputs. -/
theorem res1 (c : Dev nD) (hr : Spec.InRange (m ((c : Thread nD τ).loc main_arg2))) :
    W10 (F := Ideal) m ρ c (Proc.devRef .tc main_v11)
      = fun e : S1600000.Idx => Spec.edgeScore
          (fun j => Spec.edgeFeat (m ((c : Thread nD τ).loc main_arg0)) (m ((c : Thread nD τ).loc main_arg7))
            (m ((c : Thread nD τ).loc main_arg8)) (m ((c : Thread nD τ).loc main_arg9)) (m ((c : Thread nD τ).loc main_arg10)) (j 0) (j 1))
          (m ((c : Thread nD τ).loc main_arg2)) (e 0) := by
  rw [W10_def, first_of, scores_W9]
  funext e
  obtain ⟨e0, rfl⟩ : ∃ e0 : Fin 1600000, e = ix1 e0 := ⟨e 0, eq_ix1 e⟩
  have hlt : e0.val < 1605632 := lt_trans e0.isLt (by decide)
  rw [Take.firstEdges_apply _ e0 ⟨e0.val, hlt⟩ rfl]
  -- the score of row `e0` of the two padded tables is the score of edge `e0`: their rows `e0` are the feature rows
  -- of the edge's two nodes
  show Spec.edgeDot _ _ (⟨e0.val, hlt⟩ : Fin 1605632) = Spec.edgeScore _ _ e0
  unfold Spec.edgeDot Spec.edgeScore
  refine congrArg Ideal.logistic (Finset.sum_congr rfl fun k _ => ?_)
  rw [padded0_W8, padded1_W8, ids_W1, feat_W1,
    Take.padTake0_apply _ _ _ hr e0 ⟨e0.val, hlt⟩ rfl k, Take.padTake1_apply _ _ _ hr e0 ⟨e0.val, hlt⟩ rfl k]

end Cert.KernelIdeal.HostEdge

end
-- ==== Proof.PreRange.lean ====
/- The precondition's last two conjuncts say that every id lies in `[-50000, 50000)`. -/
import proofs.«404946_j60833916780728_3_alg».proof.Pre_finite_inputs
import proofs.«404946_j60833916780728_3_alg».proof.Proof.Gen.Pre_finite_inputs
import proofs.«404946_j60833916780728_3_alg».proof.Proof.Spec
import Idealize.ShloMosaic.Lib.ReduceAll
import Idealize.ShloMosaic.Lib.StableHlo.Predicate

set_option maxRecDepth 16384

noncomputable section

namespace Cert.Pre_finite_inputs.Range

open Idealize.ShloMosaic Idealize.ShloMosaic.ValueIdx Cert.Pre_finite_inputs

/-- The predicate's result has one index. -/
instance : Subsingleton S_.Idx := ⟨fun a b => funext fun d => d.elim0⟩

/-- Where the printed precondition is all ones, every id is in range. -/
theorem inRange_of_pre [Cert.Pre_finite_inputs.Facts]
    (x0 : FVec Ideal S50000x256 .f32) (x1 : FVec Ideal S50000x2 .f32) (x2 : IVec S2x1600000 32)
    (x3 : FVec Ideal S256x256 .f32) (x4 : FVec Ideal S256 .f32) (x5 : FVec Ideal S256x1 .f32) (x6 : FVec Ideal S1 .f32)
    (x7 : FVec Ideal S256x256 .f32) (x8 : FVec Ideal S256 .f32) (x9 : FVec Ideal S256x64 .f32) (x10 : FVec Ideal S64 .f32)
    (h : Cert.Pre_finite_inputs.fn (F := Ideal) x0 x1 x2 x3 x4 x5 x6 x7 x8 x9 x10 = fun _ => 1#1) :
    Spec.InRange x2 := by
  -- the predicate is one word; read it at its only index
  have e := congrFun h ValueIdx.ix0
  dsimp only [fn, fn_part1, fn_part2, fn_part3] at e
  -- the last two conjuncts are the two `all`s over the ids
  obtain ⟨e52, e55⟩ := IntOp.andi_eq_one.1 e
  obtain ⟨_, e51⟩ := IntOp.andi_eq_one.1 e52
  intro s ed
  have hge := Host.reduce_andi_all _ _ _ _ _ e51 (ix2 s ed)
  have hlt := Host.reduce_andi_all _ _ _ _ _ e55 (ix2 s ed)
  -- each element compares the id, as a signed word, with the bound's word
  have hge' : (4294917296#32 : BitVec 32).toInt ≤ (x2 (ix2 s ed)).toInt := IntOp.cmpi_sge.1 hge
  have hlt' : (x2 (ix2 s ed)).toInt < (50000#32 : BitVec 32).toInt := IntOp.cmpi_slt.1 hlt
  have c1 : (4294917296#32 : BitVec 32).toInt = -50000 := by decide
  have c2 : (50000#32 : BitVec 32).toInt = 50000 := by decide
  exact ⟨by omega, by omega⟩

end Cert.Pre_finite_inputs.Range

end
-- ==== Proof.RefValue.lean ====
/- The reference's two results, index by index, are the specification's functions of its arguments. -/
import proofs.«404946_j60833916780728_3_alg».proof.Proof.Gen.ReferenceIdeal.Read
import proofs.«404946_j60833916780728_3_alg».proof.Proof.Spec
import proofs.«404946_j60833916780728_3_alg».proof.Proof.LibGatherScatter
import Idealize.ShloMosaic.Lib.ValueIdx
import Idealize.ShloMosaic.Lib.IdealHost
import Idealize.ShloMosaic.PureOps.Ideal.Laws

set_option maxRecDepth 16384

noncomputable section

namespace Cert.ReferenceIdeal.RefValue

open Idealize.ShloMosaic Idealize.ShloMosaic.ValueIdx Cert.ReferenceIdeal Cert.ReferenceIdeal.Gen Cert.ReferenceIdeal.Read
open Cert.LibGatherScatter

/-! ## The two first layers -/

/-- The first perceptron's rectified first layer at row `r`, unit `u`. -/
theorem hidden_score (x0 : (⟨S50000x256, .f32⟩ : BufTy).Contents (Elt Ideal)) (x3 : (⟨S256x256, .f32⟩ : BufTy).Contents (Elt Ideal))
    (x4 : (⟨S256, .f32⟩ : BufTy).Contents (Elt Ideal)) (r : Fin 50000) (u : Fin 256) :
    val_main_v4 (F := Ideal) x0 x3 x4 (ix2 r u) = Spec.hid x0 x3 x4 r u := by
  have e1 : ∀ k : Fin 256, lidx_main_v0 (ix2 r u) k = ix2 r k := fun k =>
    funext fun a => Fin.ext (by match a with | ⟨0, _⟩ => rfl | ⟨1, _⟩ => rfl)
  have e2 : ∀ k : Fin 256, ridx_main_v0 (ix2 r u) k = ix2 k u := fun k =>
    funext fun a => Fin.ext (by match a with | ⟨0, _⟩ => rfl | ⟨1, _⟩ => rfl)
  have e3 : idx_main_v1 (idx_main_v2 (ix2 r u)) = ix1 u :=
    funext fun a => Fin.ext (by match a with | ⟨0, _⟩ => rfl)
  rw [val_main_v4_apply, val_main_v3_apply, val_main_v0_apply, val_main_v2_apply, val_main_v1_apply,
    val_main_call0_v0_apply, val_main_call0_cst_apply]
  simp only [e1, e2, e3, Ideal.maximumf_def, Ideal.addf_def, Ideal.ofBits_def, Ideal.ofBits_zero_f32]
  rfl

/-- The second perceptron's rectified first layer at row `r`, unit `u`. -/
theorem hidden_feat (x0 : (⟨S50000x256, .f32⟩ : BufTy).Contents (Elt Ideal)) (x7 : (⟨S256x256, .f32⟩ : BufTy).Contents (Elt Ideal))
    (x8 : (⟨S256, .f32⟩ : BufTy).Contents (Elt Ideal)) (r : Fin 50000) (u : Fin 256) :
    val_main_v20 (F := Ideal) x0 x7 x8 (ix2 r u) = Spec.hid x0 x7 x8 r u := by
  have e1 : ∀ k : Fin 256, lidx_main_v16 (ix2 r u) k = ix2 r k := fun k =>
    funext fun a => Fin.ext (by match a with | ⟨0, _⟩ => rfl | ⟨1, _⟩ => rfl)
  have e2 : ∀ k : Fin 256, ridx_main_v16 (ix2 r u) k = ix2 k u := fun k =>
    funext fun a => Fin.ext (by match a with | ⟨0, _⟩ => rfl | ⟨1, _⟩ => rfl)
  have e3 : idx_main_v17 (idx_main_v18 (ix2 r u)) = ix1 u :=
    funext fun a => Fin.ext (by match a with | ⟨0, _⟩ => rfl)
  rw [val_main_v20_apply, val_main_v19_apply, val_main_v16_apply, val_main_v18_apply, val_main_v17_apply,
    val_main_call1_v0_apply, val_main_call1_cst_apply]
  simp only [e1, e2, e3, Ideal.maximumf_def, Ideal.addf_def, Ideal.ofBits_def, Ideal.ofBits_zero_f32]
  rfl

/-! ## The first result -/

/-- The reference's first result at row `r` is the node score of row `r`. -/
theorem ref_res0 (x0 : (⟨S50000x256, .f32⟩ : BufTy).Contents (Elt Ideal)) (x3 : (⟨S256x256, .f32⟩ : BufTy).Contents (Elt Ideal))
    (x4 : (⟨S256, .f32⟩ : BufTy).Contents (Elt Ideal)) (x5 : (⟨S256x1, .f32⟩ : BufTy).Contents (Elt Ideal))
    (x6 : (⟨S1, .f32⟩ : BufTy).Contents (Elt Ideal)) :
    val_main_v15 (F := Ideal) x0 x3 x4 x5 x6 = fun i : S50000.Idx => Spec.nodeScore x0 x3 x4 x5 x6 (i 0) := by
  funext i
  obtain ⟨r, rfl⟩ : ∃ r : Fin 50000, i = ix1 r := ⟨i 0, eq_ix1 i⟩
  have e1 : ∀ k : Fin 256, lidx_main_v5 (idx_main_v9 (ix1 r)) k = ix2 r k := fun k =>
    funext fun a => Fin.ext (by match a with | ⟨0, _⟩ => exact Nat.div_one _ | ⟨1, _⟩ => rfl)
  have e2 : ∀ k : Fin 256, ridx_main_v5 (idx_main_v9 (ix1 r)) k = ix2 k (0 : Fin 1) := fun k =>
    funext fun a => Fin.ext (by match a with | ⟨0, _⟩ => rfl | ⟨1, _⟩ => rfl)
  have e3 : idx_main_v6 (idx_main_v7 (idx_main_v9 (ix1 r))) = ix1 (0 : Fin 1) :=
    funext fun a => Fin.ext (by match a with | ⟨0, _⟩ => rfl)
  show val_main_v15 (F := Ideal) x0 x3 x4 x5 x6 (ix1 r) = Spec.nodeScore x0 x3 x4 x5 x6 r
  rw [val_main_v15_apply, val_main_v14_apply, val_main_cst_0_apply, val_main_v13_apply, val_main_v12_apply,
    val_main_cst_apply, val_main_v11_apply, val_main_v10_apply, val_main_v9_apply, val_main_v8_apply,
    val_main_v5_apply, val_main_v7_apply, val_main_v6_apply]
  simp only [e1, e2, e3, hidden_score, Ideal.hostDivf_def, Ideal.addf_def, Ideal.hostUnary_exp_def,
    Ideal.hostNegf_def, Ideal.negf_def, Ideal.ofBits_def, Ideal.ofBits_one_f32]
  rfl

/-! ## The feature table and the two gathers -/

/-- The second perceptron's output at row `r`, column `f`. -/
theorem feat_table (x0 : (⟨S50000x256, .f32⟩ : BufTy).Contents (Elt Ideal)) (x7 : (⟨S256x256, .f32⟩ : BufTy).Contents (Elt Ideal))
    (x8 : (⟨S256, .f32⟩ : BufTy).Contents (Elt Ideal)) (x9 : (⟨S256x64, .f32⟩ : BufTy).Contents (Elt Ideal))
    (x10 : (⟨S64, .f32⟩ : BufTy).Contents (Elt Ideal)) (r : Fin 50000) (f : Fin 64) :
    val_main_v24 (F := Ideal) x0 x7 x8 x9 x10 (ix2 r f) = Spec.edgeFeat x0 x7 x8 x9 x10 r f := by
  have e1 : ∀ k : Fin 256, lidx_main_v21 (ix2 r f) k = ix2 r k := fun k =>
    funext fun a => Fin.ext (by match a with | ⟨0, _⟩ => rfl | ⟨1, _⟩ => rfl)
  have e2 : ∀ k : Fin 256, ridx_main_v21 (ix2 r f) k = ix2 k f := fun k =>
    funext fun a => Fin.ext (by match a with | ⟨0, _⟩ => rfl | ⟨1, _⟩ => rfl)
  have e3 : idx_main_v22 (idx_main_v23 (ix2 r f)) = ix1 f :=
    funext fun a => Fin.ext (by match a with | ⟨0, _⟩ => rfl)
  rw [val_main_v24_apply, val_main_v21_apply, val_main_v23_apply, val_main_v22_apply]
  simp only [e1, e2, e3, hidden_feat, Ideal.addf_def]
  rfl

/-- The column of start indices of the first gather at edge `e`: the edge's first id, wrapped from the end
    when negative. -/
theorem start_src (x2 : (⟨S2x1600000, .i32⟩ : BufTy).Contents (Elt Ideal)) (e : Fin 1600000) :
    val_main_v32 (F := Ideal) x2 (ix2 e (0 : Fin 1)) = wrapW 50000#32 (x2 (ix2 (0 : Fin 2) e)) := by
  have e1 : idx_main_v32 (ix2 e (0 : Fin 1)) = ix1 e :=
    funext fun a => Fin.ext (by match a with | ⟨0, _⟩ => rfl)
  have e2 : idx_main_v25 (idx_main_v26 (ix1 e)) = ix2 (0 : Fin 2) e :=
    funext fun a => Fin.ext (by match a with | ⟨0, _⟩ => rfl | ⟨1, _⟩ => exact Nat.mod_eq_of_lt e.isLt)
  rw [val_main_v32_apply, e1]
  unfold val_main_v31 val_main_v28 val_main_v30 val_main_v27 val_main_v29 val_main_c val_main_c_1
  rw [wrap_apply, val_main_v26_apply, val_main_v25_apply, e2]

/-- The column of start indices of the second gather at edge `e`: the edge's second id, wrapped. -/
theorem start_dst (x2 : (⟨S2x1600000, .i32⟩ : BufTy).Contents (Elt Ideal)) (e : Fin 1600000) :
    val_main_v41 (F := Ideal) x2 (ix2 e (0 : Fin 1)) = wrapW 50000#32 (x2 (ix2 (1 : Fin 2) e)) := by
  have e1 : idx_main_v41 (ix2 e (0 : Fin 1)) = ix1 e :=
    funext fun a => Fin.ext (by match a with | ⟨0, _⟩ => rfl)
  have e2 : idx_main_v34 (idx_main_v35 (ix1 e)) = ix2 (1 : Fin 2) e :=
    funext fun a => Fin.ext (by match a with | ⟨0, _⟩ => rfl | ⟨1, _⟩ => exact Nat.mod_eq_of_lt e.isLt)
  rw [val_main_v41_apply, e1]
  unfold val_main_v40 val_main_v37 val_main_v39 val_main_v36 val_main_v38 val_main_c_2 val_main_c_3
  rw [wrap_apply, val_main_v35_apply, val_main_v34_apply, e2]

/-- The first gather at edge `e`, column `f`: the feature table at the row the edge's first id names. -/
theorem gather_src (x0 : (⟨S50000x256, .f32⟩ : BufTy).Contents (Elt Ideal)) (x2 : (⟨S2x1600000, .i32⟩ : BufTy).Contents (Elt Ideal))
    (x7 : (⟨S256x256, .f32⟩ : BufTy).Contents (Elt Ideal)) (x8 : (⟨S256, .f32⟩ : BufTy).Contents (Elt Ideal))
    (x9 : (⟨S256x64, .f32⟩ : BufTy).Contents (Elt Ideal)) (x10 : (⟨S64, .f32⟩ : BufTy).Contents (Elt Ideal))
    (e : Fin 1600000) (f : Fin 64) :
    val_main_v33 (F := Ideal) x0 x2 x7 x8 x9 x10 (ix2 e f)
      = Spec.edgeFeat x0 x7 x8 x9 x10 (Spec.rowOf x2 0 e) f := by
  unfold val_main_v33
  rw [gather2_apply (by decide) gather_S50000x64_S1600000x1_S1600000x64_1_0_n_n_0_1_164 rfl rfl rfl rfl rfl,
    feat_table, start_src]
  rfl

/-- The second gather at edge `e`, column `f`: the feature table at the row the edge's second id names. -/
theorem gather_dst (x0 : (⟨S50000x256, .f32⟩ : BufTy).Contents (Elt Ideal)) (x2 : (⟨S2x1600000, .i32⟩ : BufTy).Contents (Elt Ideal))
    (x7 : (⟨S256x256, .f32⟩ : BufTy).Contents (Elt Ideal)) (x8 : (⟨S256, .f32⟩ : BufTy).Contents (Elt Ideal))
    (x9 : (⟨S256x64, .f32⟩ : BufTy).Contents (Elt Ideal)) (x10 : (⟨S64, .f32⟩ : BufTy).Contents (Elt Ideal))
    (e : Fin 1600000) (f : Fin 64) :
    val_main_v42 (F := Ideal) x0 x2 x7 x8 x9 x10 (ix2 e f)
      = Spec.edgeFeat x0 x7 x8 x9 x10 (Spec.rowOf x2 1 e) f := by
  unfold val_main_v42
  rw [gather2_apply (by decide) gather_S50000x64_S1600000x1_S1600000x64_1_0_n_n_0_1_164 rfl rfl rfl rfl rfl,
    feat_table, start_dst]
  rfl

/-! ## The second result -/

/-- The reference's second result at edge `e` is the edge score over its own feature table. -/
theorem ref_res1 (x0 : (⟨S50000x256, .f32⟩ : BufTy).Contents (Elt Ideal)) (x2 : (⟨S2x1600000, .i32⟩ : BufTy).Contents (Elt Ideal))
    (x7 : (⟨S256x256, .f32⟩ : BufTy).Contents (Elt Ideal)) (x8 : (⟨S256, .f32⟩ : BufTy).Contents (Elt Ideal))
    (x9 : (⟨S256x64, .f32⟩ : BufTy).Contents (Elt Ideal)) (x10 : (⟨S64, .f32⟩ : BufTy).Contents (Elt Ideal)) :
    val_main_v50 (F := Ideal) x0 x2 x7 x8 x9 x10
      = fun e : S1600000.Idx => Spec.edgeScore (fun j => Spec.edgeFeat x0 x7 x8 x9 x10 (j 0) (j 1)) x2 (e 0) := by
  funext i
  obtain ⟨e, rfl⟩ : ∃ e : Fin 1600000, i = ix1 e := ⟨i 0, eq_ix1 i⟩
  have e1 : ∀ k : Fin 64, idx_main_v44 (ix1 e) k = ix2 e k := fun k =>
    funext fun a => Fin.ext (by match a with | ⟨0, _⟩ => rfl | ⟨1, _⟩ => rfl)
  show val_main_v50 (F := Ideal) x0 x2 x7 x8 x9 x10 (ix1 e)
    = Spec.edgeScore (fun j => Spec.edgeFeat x0 x7 x8 x9 x10 (j 0) (j 1)) x2 e
  rw [val_main_v50_apply, val_main_v49_apply, val_main_cst_6_apply, val_main_v48_apply, val_main_v47_apply,
    val_main_cst_5_apply, val_main_v46_apply, val_main_v45_apply, val_main_v44_apply, val_main_cst_4_apply]
  simp only [e1, val_main_v43_apply, gather_src, gather_dst, Ideal.hostDivf_def, Ideal.addf_def, Ideal.mulf_def,
    Ideal.hostUnary_exp_def, Ideal.hostNegf_def, Ideal.negf_def, Ideal.ofBits_def, Ideal.ofBits_one_f32,
    Ideal.ofBits_zero_f32, zero_add]
  rfl

end Cert.ReferenceIdeal.RefValue

end
-- ==== Proof.lean ====
/-
  A graph network's scores. Every node's 256 features go through two two-layer perceptrons: one gives the node's
  score (a logistic function), the other a row of 64 edge features. Every edge names two nodes by integer ids and
  is scored by the logistic function of the dot product of the two nodes' feature rows.

  The kernel program computes both perceptrons block by block (10 blocks of 5000 rows), gathers the two feature
  rows of every edge on the host, and scores the edges block by block (98 blocks of 16384 edges over tables padded
  with zero rows, the padding sliced off at the end). The reference computes the same with whole-array operations.
  Over the extended reals both are one function of the arguments (`Spec.nodeScore`, `Spec.edgeScore`): a matrix
  product into a zero accumulator is the plain sum of products, a change of float format is the identity, and the
  logistic operation is the quotient `1 / (1 + exp (-x))` the reference spells out; no law used needs the inputs
  to be finite.

  The two programs read an id differently when it is out of range: the kernel's gather fills such a row with a
  not-a-number pattern, the reference's clamps the id into the table. The precondition therefore also says that
  every id lies in `[-50000, 50000)`, the ids for which indexing a 50000-row table is defined (a negative id counts
  from the end, in both programs alike); there the fill never happens and the two gathers read the same row.
-/
import proofs.«404946_j60833916780728_3_alg».proof.Defs
import proofs.«404946_j60833916780728_3_alg».proof.Proof.Gen.Kernel
import proofs.«404946_j60833916780728_3_alg».proof.Proof.Gen.Kernel.Skeleton
import proofs.«404946_j60833916780728_3_alg».proof.Proof.Gen.Kernel.Launch
import proofs.«404946_j60833916780728_3_alg».proof.Proof.Gen.Kernel.Points
import proofs.«404946_j60833916780728_3_alg».proof.Proof.Gen.Kernel.Frame
import proofs.«404946_j60833916780728_3_alg».proof.Proof.Gen.KernelIdeal
import proofs.«404946_j60833916780728_3_alg».proof.Proof.Gen.KernelIdeal.Skeleton
import proofs.«404946_j60833916780728_3_alg».proof.Proof.Gen.KernelIdeal.Launch
import proofs.«404946_j60833916780728_3_alg».proof.Proof.Gen.KernelIdeal.Points
import proofs.«404946_j60833916780728_3_alg».proof.Proof.Gen.KernelIdeal.Frame
import proofs.«404946_j60833916780728_3_alg».proof.Proof.Gen.ReferenceIdeal
import proofs.«404946_j60833916780728_3_alg».proof.Proof.Gen.ReferenceIdeal.Run
import proofs.«404946_j60833916780728_3_alg».proof.Proof.Gen.ReferenceIdeal.Read
import proofs.«404946_j60833916780728_3_alg».proof.Proof.Gen.Pre_finite_inputs
import proofs.«404946_j60833916780728_3_alg».proof.Proof.ValueRun
import proofs.«404946_j60833916780728_3_alg».proof.Proof.HostScore
import proofs.«404946_j60833916780728_3_alg».proof.Proof.HostEdge
import proofs.«404946_j60833916780728_3_alg».proof.Proof.PreRange
import proofs.«404946_j60833916780728_3_alg».proof.Proof.RefValue
import Idealize.ShloMosaic.Adequacy
import Idealize.ShloMosaic.Init

noncomputable section

namespace Cert.Proof

open Idealize.ShloMosaic Idealize.SL.Sem

/-- The kernel program runs and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments as launched: its run, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories that agree on the arguments, with every id in range, both programs end with the node scores and
    the edge scores of the specification. -/
theorem algebraic : Cert.algebraic_KernelIdeal_ReferenceIdeal := by
  intro m ρ m' ρ' hpre hagree
  refine ⟨fun c => fun i : Cert.KernelIdeal.S50000.Idx =>
        Spec.nodeScore (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
          (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (i 0),
      fun c => fun e : Cert.KernelIdeal.S1600000.Idx =>
        Spec.edgeScore (fun j => Spec.edgeFeat (m ((c.tc : Thread Cert.KernelIdeal.nD Cert.KernelIdeal.τ).loc Cert.KernelIdeal.main_arg0)) (m ((c.tc : Thread Cert.KernelIdeal.nD Cert.KernelIdeal.τ).loc Cert.KernelIdeal.main_arg7))
          (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (j 0) (j 1))
          (m ((c.tc : Thread Cert.KernelIdeal.nD Cert.KernelIdeal.τ).loc Cert.KernelIdeal.main_arg2)) (e 0), ?_, ?_⟩
  · refine (θ_run Cert.KernelIdeal.defs _ _).mono (fun r h c => ?_) (Cert.KernelIdeal.ValueRun.run_value (F := Ideal) m ρ)
    obtain ⟨h1, h11, hargs⟩ := h c
    have hr : Spec.InRange (m ((c.tc : Thread Cert.KernelIdeal.nD Cert.KernelIdeal.τ).loc Cert.KernelIdeal.main_arg2)) :=
      Cert.Pre_finite_inputs.Range.inRange_of_pre _ _ _ _ _ _ _ _ _ _ _ (hpre c)
    exact ⟨h1.trans (Cert.KernelIdeal.HostScore.res0 m ρ c), h11.trans (Cert.KernelIdeal.HostEdge.res1 m ρ c hr), hargs⟩
  · refine (θ_run Cert.ReferenceIdeal.defs _ _).mono (fun r h c => ?_) (Cert.ReferenceIdeal.Value.run (F := Ideal) m' ρ')
    obtain ⟨h15, h50, hargs⟩ := h c
    obtain ⟨a0, a1, a2, a3, a4, a5, a6, a7, a8, a9, a10⟩ := hagree c
    refine ⟨h15.trans ?_, h50.trans ?_, hargs⟩
    · rw [Cert.ReferenceIdeal.Read.val_main_v15_eq, Cert.ReferenceIdeal.RefValue.ref_res0, a0, a3, a4, a5, a6]
    · rw [Cert.ReferenceIdeal.Read.val_main_v50_eq, Cert.ReferenceIdeal.RefValue.ref_res1, a0, a2, a7, a8, a9, a10]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
